-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x196x768 : Shape := ⟨4, ![8, 32, 196, 768]⟩
abbrev S_ : Shape := ⟨0, ![]⟩

class Facts : Prop where
  bcast_S_S8x32x196x768 : S_.BroadcastsInDim S8x32x196x768 (![] : Fin 0 → Fin S8x32x196x768.rank)
  reducesTo_S8x32x196x768_S_d0_1_2_3 : S8x32x196x768.ReducesTo [0, 1, 2, 3] S_
  h_S_ : 0 < S_.numel

variable [Facts]

def fn {F : FTy → Type} [FloatOps F] (main_arg0 : FVec F S8x32x196x768 .f32) : IVec S_ 1 :=
  let main_v0 : FVec F S8x32x196x768 .f32 := Host.absf main_arg0
  let main_cst : FVec F S_ .f32 := constant S_ .f32 0x7F800000#32
  let main_v1 : FVec F S8x32x196x768 .f32 := broadcastInDim S8x32x196x768 ![] bcast_S_S8x32x196x768 main_cst
  let main_v2 : IVec S8x32x196x768 1 := cmpf .olt main_v0 main_v1
  let main_c : IVec S_ 1 := constantI S_ 1 1#1
  let main_v3 : IVec S_ 1 := (fun x v => Host.reduce IntOp.andi x v reducesTo_S8x32x196x768_S_d0_1_2_3 h_S_) main_v2 main_c
  main_v3
-- ==== Kernel.lean ====
abbrev S8x32x196x768 : Shape := ⟨4, ![8, 32, 196, 768]⟩
abbrev S8x8x784x768 : Shape := ⟨4, ![8, 8, 784, 768]⟩
abbrev S1x4x784x768 : Shape := ⟨4, ![1, 4, 784, 768]⟩
abbrev S1x4x3x768 : Shape := ⟨4, ![1, 4, 3, 768]⟩
abbrev S4x3x768 : Shape := ⟨3, ![4, 3, 768]⟩
abbrev S1x4x5x768 : Shape := ⟨4, ![1, 4, 5, 768]⟩
abbrev S4x5x768 : Shape := ⟨3, ![4, 5, 768]⟩
abbrev S1x4x1x768 : Shape := ⟨4, ![1, 4, 1, 768]⟩
abbrev S4x1x768 : Shape := ⟨3, ![4, 1, 768]⟩
abbrev S1x4x4x768 : Shape := ⟨4, ![1, 4, 4, 768]⟩
abbrev S4x4x768 : Shape := ⟨3, ![4, 4, 768]⟩
abbrev S1x4x7x768 : Shape := ⟨4, ![1, 4, 7, 768]⟩
abbrev S4x7x768 : Shape := ⟨3, ![4, 7, 768]⟩
abbrev S1x4x9x768 : Shape := ⟨4, ![1, 4, 9, 768]⟩
abbrev S4x9x768 : Shape := ⟨3, ![4, 9, 768]⟩
abbrev S1x4x6x768 : Shape := ⟨4, ![1, 4, 6, 768]⟩
abbrev S4x6x768 : Shape := ⟨3, ![4, 6, 768]⟩
abbrev S1x4x11x768 : Shape := ⟨4, ![1, 4, 11, 768]⟩
abbrev S4x11x768 : Shape := ⟨3, ![4, 11, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x32x196x768, .f32⟩
  | .hbm, ⟨1, _⟩ => ⟨S8x8x784x768, .f32⟩
  | .hbm, ⟨2, _⟩ => ⟨S8x8x784x768, .f32⟩
  | .hbm, ⟨3, _⟩ => ⟨S8x32x196x768, .f32⟩
  | .local _ .vmem, ⟨0, _⟩ => ⟨S1x4x784x768, .f32⟩
  | .local _ .vmem, ⟨1, _⟩ => ⟨S1x4x784x768, .f32⟩
  | .local _ .vmem, ⟨2, _⟩ => ⟨S1x4x784x768, .f32⟩
  | .local _ .vmem, ⟨3, _⟩ => ⟨S1x4x784x768, .f32⟩
  | _, _ => ⟨S8x32x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x784x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x784x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x32x196x768_S8x8x784x768 : S8x32x196x768.ShapeCasts S8x8x784x768
  inb_S1x4x784x768_S1x4x3x768_0_0_45_0 : ∀ a, (![0, 0, 45, 0] : Fin 4 → Nat) a + S1x4x3x768.size a ≤ S1x4x784x768.size a
  h_S1x4x3x768 : 0 < S1x4x3x768.numel
  shapeCasts_S1x4x3x768_S4x3x768 : S1x4x3x768.ShapeCasts S4x3x768
  inb_S1x4x784x768_S1x4x3x768_0_0_0_0 : ∀ a, (![0, 0, 0, 0] : Fin 4 → Nat) a + S1x4x3x768.size a ≤ S1x4x784x768.size a
  shapeCasts_S4x3x768_S1x4x3x768 : S4x3x768.ShapeCasts S1x4x3x768
  inb_S1x4x784x768_S1x4x3x768_0_0_47_0 : ∀ a, (![0, 0, 47, 0] : Fin 4 → Nat) a + S1x4x3x768.size a ≤ S1x4x784x768.size a
  inb_S1x4x784x768_S1x4x3x768_0_0_3_0 : ∀ a, (![0, 0, 3, 0] : Fin 4 → Nat) a + S1x4x3x768.size a ≤ S1x4x784x768.size a
  inb_S1x4x784x768_S1x4x3x768_0_0_60_0 : ∀ a, (![0, 0, 60, 0] : Fin 4 → Nat) a + S1x4x3x768.size a ≤ S1x4x784x768.size a
  inb_S1x4x784x768_S1x4x3x768_0_0_6_0 : ∀ a, (![0, 0, 6, 0] : Fin 4 → Nat) a + S1x4x3x768.size a ≤ S1x4x784x768.size a
  inb_S1x4x784x768_S1x4x5x768_0_0_73_0 : ∀ a, (![0, 0, 73, 0] : Fin 4 → Nat) a + S1x4x5x768.size a ≤ S1x4x784x768.size a
  h_S1x4x5x768 : 0 < S1x4x5x768.numel
  shapeCasts_S1x4x5x768_S4x5x768 : S1x4x5x768.ShapeCasts S4x5x768
  inb_S1x4x784x768_S1x4x5x768_0_0_9_0 : ∀ a, (![0, 0, 9, 0] : Fin 4 → Nat) a + S1x4x5x768.size a ≤ S1x4x784x768.size a
  shapeCasts_S4x5x768_S1x4x5x768 : S4x5x768.ShapeCasts S1x4x5x768
  inb_S1x4x784x768_S1x4x1x768_0_0_101_0 : ∀ a, (![0, 0, 101, 0] : Fin 4 → Nat) a + S1x4x1x768.size a ≤ S1x4x784x768.size a
  h_S1x4x1x768 : 0 < S1x4x1x768.numel
  shapeCasts_S1x4x1x768_S4x1x768 : S1x4x1x768.ShapeCasts S4x1x768
  inb_S1x4x784x768_S1x4x1x768_0_0_14_0 : ∀ a, (![0, 0, 14, 0] : Fin 4 → Nat) a + S1x4x1x768.size a ≤ S1x4x784x768.size a
  shapeCasts_S4x1x768_S1x4x1x768 : S4x1x768.ShapeCasts S1x4x1x768
  inb_S1x4x784x768_S1x4x1x768_0_0_103_0 : ∀ a, (![0, 0, 103, 0] : Fin 4 → Nat) a + S1x4x1x768.size a ≤ S1x4x784x768.size a
  inb_S1x4x784x768_S1x4x1x768_0_0_15_0 : ∀ a, (![0, 0, 15, 0] : Fin 4 → Nat) a + S1x4x1x768.size a ≤ S1x4x784x768.size a
  inb_S1x4x784x768_S1x4x1x768_0_0_105_0 : ∀ a, (![0, 0, 105, 0] : Fin 4 → Nat) a + S1x4x1x768.size a ≤ S1x4x784x768.size a
  inb_S1x4x784x768_S1x4x1x768_0_0_16_0 : ∀ a, (![0, 0, 16, 0] : Fin 4 → Nat) a + S1x4x1x768.size a ≤ S1x4x784x768.size a
  inb_S1x4x784x768_S1x4x4x768_0_0_226_0 : ∀ a, (![0, 0, 226, 0] : Fin 4 → Nat) a + S1x4x4x768.size a ≤ S1x4x784x768.size a
  h_S1x4x4x768 : 0 < S1x4x4x768.numel
  shapeCasts_S1x4x4x768_S4x4x768 : S1x4x4x768.ShapeCasts S4x4x768
  inb_S1x4x784x768_S1x4x4x768_0_0_17_0 : ∀ a, (![0, 0, 17, 0] : Fin 4 → Nat) a + S1x4x4x768.size a ≤ S1x4x784x768.size a
  shapeCasts_S4x4x768_S1x4x4x768 : S4x4x768.ShapeCasts S1x4x4x768
  inb_S1x4x784x768_S1x4x4x768_0_0_229_0 : ∀ a, (![0, 0, 229, 0] : Fin 4 → Nat) a + S1x4x4x768.size a ≤ S1x4x784x768.size a
  inb_S1x4x784x768_S1x4x4x768_0_0_21_0 : ∀ a, (![0, 0, 21, 0] : Fin 4 → Nat) a + S1x4x4x768.size a ≤ S1x4x784x768.size a
  inb_S1x4x784x768_S1x4x5x768_0_0_241_0 : ∀ a, (![0, 0, 241, 0] : Fin 4 → Nat) a + S1x4x5x768.size a ≤ S1x4x784x768.size a
  inb_S1x4x784x768_S1x4x5x768_0_0_25_0 : ∀ a, (![0, 0, 25, 0] : Fin 4 → Nat) a + S1x4x5x768.size a ≤ S1x4x784x768.size a
  inb_S1x4x784x768_S1x4x5x768_0_0_255_0 : ∀ a, (![0, 0, 255, 0] : Fin 4 → Nat) a + S1x4x5x768.size a ≤ S1x4x784x768.size a
  inb_S1x4x784x768_S1x4x5x768_0_0_30_0 : ∀ a, (![0, 0, 30, 0] : Fin 4 → Nat) a + S1x4x5x768.size a ≤ S1x4x784x768.size a
  inb_S1x4x784x768_S1x4x7x768_0_0_268_0 : ∀ a, (![0, 0, 268, 0] : Fin 4 → Nat) a + S1x4x7x768.size a ≤ S1x4x784x768.size a
  h_S1x4x7x768 : 0 < S1x4x7x768.numel
  shapeCasts_S1x4x7x768_S4x7x768 : S1x4x7x768.ShapeCasts S4x7x768
  inb_S1x4x784x768_S1x4x7x768_0_0_35_0 : ∀ a, (![0, 0, 35, 0] : Fin 4 → Nat) a + S1x4x7x768.size a ≤ S1x4x784x768.size a
  shapeCasts_S4x7x768_S1x4x7x768 : S4x7x768.ShapeCasts S1x4x7x768
  inb_S1x4x784x768_S1x4x5x768_0_0_283_0 : ∀ a, (![0, 0, 283, 0] : Fin 4 → Nat) a + S1x4x5x768.size a ≤ S1x4x784x768.size a
  inb_S1x4x784x768_S1x4x5x768_0_0_42_0 : ∀ a, (![0, 0, 42, 0] : Fin 4 → Nat) a + S1x4x5x768.size a ≤ S1x4x784x768.size a
  inb_S1x4x784x768_S1x4x1x768_0_0_310_0 : ∀ a, (![0, 0, 310, 0] : Fin 4 → Nat) a + S1x4x1x768.size a ≤ S1x4x784x768.size a
  inb_S1x4x784x768_S1x4x1x768_0_0_47_0 : ∀ a, (![0, 0, 47, 0] : Fin 4 → Nat) a + S1x4x1x768.size a ≤ S1x4x784x768.size a
  inb_S1x4x784x768_S1x4x1x768_0_0_313_0 : ∀ a, (![0, 0, 313, 0] : Fin 4 → Nat) a + S1x4x1x768.size a ≤ S1x4x784x768.size a
  inb_S1x4x784x768_S1x4x1x768_0_0_48_0 : ∀ a, (![0, 0, 48, 0] : Fin 4 → Nat) a + S1x4x1x768.size a ≤ S1x4x784x768.size a
  inb_S1x4x784x768_S1x4x1x768_0_0_316_0 : ∀ a, (![0, 0, 316, 0] : Fin 4 → Nat) a + S1x4x1x768.size a ≤ S1x4x784x768.size a
  inb_S1x4x784x768_S1x4x1x768_0_0_49_0 : ∀ a, (![0, 0, 49, 0] : Fin 4 → Nat) a + S1x4x1x768.size a ≤ S1x4x784x768.size a
  inb_S1x4x784x768_S1x4x5x768_0_0_407_0 : ∀ a, (![0, 0, 407, 0] : Fin 4 → Nat) a + S1x4x5x768.size a ≤ S1x4x784x768.size a
  inb_S1x4x784x768_S1x4x5x768_0_0_50_0 : ∀ a, (![0, 0, 50, 0] : Fin 4 → Nat) a + S1x4x5x768.size a ≤ S1x4x784x768.size a
  inb_S1x4x784x768_S1x4x5x768_0_0_411_0 : ∀ a, (![0, 0, 411, 0] : Fin 4 → Nat) a + S1x4x5x768.size a ≤ S1x4x784x768.size a
  inb_S1x4x784x768_S1x4x5x768_0_0_55_0 : ∀ a, (![0, 0, 55, 0] : Fin 4 → Nat) a + S1x4x5x768.size a ≤ S1x4x784x768.size a
  inb_S1x4x784x768_S1x4x7x768_0_0_422_0 : ∀ a, (![0, 0, 422, 0] : Fin 4 → Nat) a + S1x4x7x768.size a ≤ S1x4x784x768.size a
  inb_S1x4x784x768_S1x4x7x768_0_0_60_0 : ∀ a, (![0, 0, 60, 0] : Fin 4 → Nat) a + S1x4x7x768.size a ≤ S1x4x784x768.size a
  inb_S1x4x784x768_S1x4x7x768_0_0_436_0 : ∀ a, (![0, 0, 436, 0] : Fin 4 → Nat) a + S1x4x7x768.size a ≤ S1x4x784x768.size a
  inb_S1x4x784x768_S1x4x7x768_0_0_67_0 : ∀ a, (![0, 0, 67, 0] : Fin 4 → Nat) a + S1x4x7x768.size a ≤ S1x4x784x768.size a
  inb_S1x4x784x768_S1x4x7x768_0_0_450_0 : ∀ a, (![0, 0, 450, 0] : Fin 4 → Nat) a + S1x4x7x768.size a ≤ S1x4x784x768.size a
  inb_S1x4x784x768_S1x4x7x768_0_0_74_0 : ∀ a, (![0, 0, 74, 0] : Fin 4 → Nat) a + S1x4x7x768.size a ≤ S1x4x784x768.size a
  inb_S1x4x784x768_S1x4x9x768_0_0_463_0 : ∀ a, (![0, 0, 463, 0] : Fin 4 → Nat) a + S1x4x9x768.size a ≤ S1x4x784x768.size a
  h_S1x4x9x768 : 0 < S1x4x9x768.numel
  shapeCasts_S1x4x9x768_S4x9x768 : S1x4x9x768.ShapeCasts S4x9x768
  inb_S1x4x784x768_S1x4x9x768_0_0_81_0 : ∀ a, (![0, 0, 81, 0] : Fin 4 → Nat) a + S1x4x9x768.size a ≤ S1x4x784x768.size a
  shapeCasts_S4x9x768_S1x4x9x768 : S4x9x768.ShapeCasts S1x4x9x768
  inb_S1x4x784x768_S1x4x7x768_0_0_478_0 : ∀ a, (![0, 0, 478, 0] : Fin 4 → Nat) a + S1x4x7x768.size a ≤ S1x4x784x768.size a
  inb_S1x4x784x768_S1x4x7x768_0_0_90_0 : ∀ a, (![0, 0, 90, 0] : Fin 4 → Nat) a + S1x4x7x768.size a ≤ S1x4x784x768.size a
  inb_S1x4x784x768_S1x4x7x768_0_0_492_0 : ∀ a, (![0, 0, 492, 0] : Fin 4 → Nat) a + S1x4x7x768.size a ≤ S1x4x784x768.size a
  inb_S1x4x784x768_S1x4x7x768_0_0_97_0 : ∀ a, (![0, 0, 97, 0] : Fin 4 → Nat) a + S1x4x7x768.size a ≤ S1x4x784x768.size a
  inb_S1x4x784x768_S1x4x1x768_0_0_519_0 : ∀ a, (![0, 0, 519, 0] : Fin 4 → Nat) a + S1x4x1x768.size a ≤ S1x4x784x768.size a
  inb_S1x4x784x768_S1x4x1x768_0_0_104_0 : ∀ a, (![0, 0, 104, 0] : Fin 4 → Nat) a + S1x4x1x768.size a ≤ S1x4x784x768.size a
  inb_S1x4x784x768_S1x4x1x768_0_0_523_0 : ∀ a, (![0, 0, 523, 0] : Fin 4 → Nat) a + S1x4x1x768.size a ≤ S1x4x784x768.size a
  inb_S1x4x784x768_S1x4x1x768_0_0_527_0 : ∀ a, (![0, 0, 527, 0] : Fin 4 → Nat) a + S1x4x1x768.size a ≤ S1x4x784x768.size a
  inb_S1x4x784x768_S1x4x1x768_0_0_106_0 : ∀ a, (![0, 0, 106, 0] : Fin 4 → Nat) a + S1x4x1x768.size a ≤ S1x4x784x768.size a
  inb_S1x4x784x768_S1x4x6x768_0_0_588_0 : ∀ a, (![0, 0, 588, 0] : Fin 4 → Nat) a + S1x4x6x768.size a ≤ S1x4x784x768.size a
  h_S1x4x6x768 : 0 < S1x4x6x768.numel
  shapeCasts_S1x4x6x768_S4x6x768 : S1x4x6x768.ShapeCasts S4x6x768
  inb_S1x4x784x768_S1x4x6x768_0_0_107_0 : ∀ a, (![0, 0, 107, 0] : Fin 4 → Nat) a + S1x4x6x768.size a ≤ S1x4x784x768.size a
  shapeCasts_S4x6x768_S1x4x6x768 : S4x6x768.ShapeCasts S1x4x6x768
  inb_S1x4x784x768_S1x4x6x768_0_0_593_0 : ∀ a, (![0, 0, 593, 0] : Fin 4 → Nat) a + S1x4x6x768.size a ≤ S1x4x784x768.size a
  inb_S1x4x784x768_S1x4x6x768_0_0_113_0 : ∀ a, (![0, 0, 113, 0] : Fin 4 → Nat) a + S1x4x6x768.size a ≤ S1x4x784x768.size a
  inb_S1x4x784x768_S1x4x9x768_0_0_603_0 : ∀ a, (![0, 0, 603, 0] : Fin 4 → Nat) a + S1x4x9x768.size a ≤ S1x4x784x768.size a
  inb_S1x4x784x768_S1x4x9x768_0_0_119_0 : ∀ a, (![0, 0, 119, 0] : Fin 4 → Nat) a + S1x4x9x768.size a ≤ S1x4x784x768.size a
  inb_S1x4x784x768_S1x4x9x768_0_0_617_0 : ∀ a, (![0, 0, 617, 0] : Fin 4 → Nat) a + S1x4x9x768.size a ≤ S1x4x784x768.size a
  inb_S1x4x784x768_S1x4x9x768_0_0_128_0 : ∀ a, (![0, 0, 128, 0] : Fin 4 → Nat) a + S1x4x9x768.size a ≤ S1x4x784x768.size a
  inb_S1x4x784x768_S1x4x9x768_0_0_631_0 : ∀ a, (![0, 0, 631, 0] : Fin 4 → Nat) a + S1x4x9x768.size a ≤ S1x4x784x768.size a
  inb_S1x4x784x768_S1x4x9x768_0_0_137_0 : ∀ a, (![0, 0, 137, 0] : Fin 4 → Nat) a + S1x4x9x768.size a ≤ S1x4x784x768.size a
  inb_S1x4x784x768_S1x4x9x768_0_0_645_0 : ∀ a, (![0, 0, 645, 0] : Fin 4 → Nat) a + S1x4x9x768.size a ≤ S1x4x784x768.size a
  inb_S1x4x784x768_S1x4x9x768_0_0_146_0 : ∀ a, (![0, 0, 146, 0] : Fin 4 → Nat) a + S1x4x9x768.size a ≤ S1x4x784x768.size a
  inb_S1x4x784x768_S1x4x11x768_0_0_658_0 : ∀ a, (![0, 0, 658, 0] : Fin 4 → Nat) a + S1x4x11x768.size a ≤ S1x4x784x768.size a
  h_S1x4x11x768 : 0 < S1x4x11x768.numel
  shapeCasts_S1x4x11x768_S4x11x768 : S1x4x11x768.ShapeCasts S4x11x768
  inb_S1x4x784x768_S1x4x11x768_0_0_155_0 : ∀ a, (![0, 0, 155, 0] : Fin 4 → Nat) a + S1x4x11x768.size a ≤ S1x4x784x768.size a
  shapeCasts_S4x11x768_S1x4x11x768 : S4x11x768.ShapeCasts S1x4x11x768
  inb_S1x4x784x768_S1x4x9x768_0_0_673_0 : ∀ a, (![0, 0, 673, 0] : Fin 4 → Nat) a + S1x4x9x768.size a ≤ S1x4x784x768.size a
  inb_S1x4x784x768_S1x4x9x768_0_0_166_0 : ∀ a, (![0, 0, 166, 0] : Fin 4 → Nat) a + S1x4x9x768.size a ≤ S1x4x784x768.size a
  inb_S1x4x784x768_S1x4x9x768_0_0_687_0 : ∀ a, (![0, 0, 687, 0] : Fin 4 → Nat) a + S1x4x9x768.size a ≤ S1x4x784x768.size a
  inb_S1x4x784x768_S1x4x9x768_0_0_175_0 : ∀ a, (![0, 0, 175, 0] : Fin 4 → Nat) a + S1x4x9x768.size a ≤ S1x4x784x768.size a
  inb_S1x4x784x768_S1x4x9x768_0_0_701_0 : ∀ a, (![0, 0, 701, 0] : Fin 4 → Nat) a + S1x4x9x768.size a ≤ S1x4x784x768.size a
  inb_S1x4x784x768_S1x4x9x768_0_0_184_0 : ∀ a, (![0, 0, 184, 0] : Fin 4 → Nat) a + S1x4x9x768.size a ≤ S1x4x784x768.size a
  inb_S1x4x784x768_S1x4x1x768_0_0_728_0 : ∀ a, (![0, 0, 728, 0] : Fin 4 → Nat) a + S1x4x1x768.size a ≤ S1x4x784x768.size a
  inb_S1x4x784x768_S1x4x1x768_0_0_193_0 : ∀ a, (![0, 0, 193, 0] : Fin 4 → Nat) a + S1x4x1x768.size a ≤ S1x4x784x768.size a
  inb_S1x4x784x768_S1x4x1x768_0_0_733_0 : ∀ a, (![0, 0, 733, 0] : Fin 4 → Nat) a + S1x4x1x768.size a ≤ S1x4x784x768.size a
  inb_S1x4x784x768_S1x4x1x768_0_0_194_0 : ∀ a, (![0, 0, 194, 0] : Fin 4 → Nat) a + S1x4x1x768.size a ≤ S1x4x784x768.size a
  inb_S1x4x784x768_S1x4x1x768_0_0_738_0 : ∀ a, (![0, 0, 738, 0] : Fin 4 → Nat) a + S1x4x1x768.size a ≤ S1x4x784x768.size a
  inb_S1x4x784x768_S1x4x1x768_0_0_195_0 : ∀ a, (![0, 0, 195, 0] : Fin 4 → Nat) a + S1x4x1x768.size a ≤ S1x4x784x768.size a
  inb_S1x4x784x768_S1x4x3x768_0_0_48_0 : ∀ a, (![0, 0, 48, 0] : Fin 4 → Nat) a + S1x4x3x768.size a ≤ S1x4x784x768.size a
  inb_S1x4x784x768_S1x4x3x768_0_0_196_0 : ∀ a, (![0, 0, 196, 0] : Fin 4 → Nat) a + S1x4x3x768.size a ≤ S1x4x784x768.size a
  inb_S1x4x784x768_S1x4x3x768_0_0_50_0 : ∀ a, (![0, 0, 50, 0] : Fin 4 → Nat) a + S1x4x3x768.size a ≤ S1x4x784x768.size a
  inb_S1x4x784x768_S1x4x3x768_0_0_199_0 : ∀ a, (![0, 0, 199, 0] : Fin 4 → Nat) a + S1x4x3x768.size a ≤ S1x4x784x768.size a
  inb_S1x4x784x768_S1x4x3x768_0_0_63_0 : ∀ a, (![0, 0, 63, 0] : Fin 4 → Nat) a + S1x4x3x768.size a ≤ S1x4x784x768.size a
  inb_S1x4x784x768_S1x4x3x768_0_0_202_0 : ∀ a, (![0, 0, 202, 0] : Fin 4 → Nat) a + S1x4x3x768.size a ≤ S1x4x784x768.size a
  inb_S1x4x784x768_S1x4x5x768_0_0_76_0 : ∀ a, (![0, 0, 76, 0] : Fin 4 → Nat) a + S1x4x5x768.size a ≤ S1x4x784x768.size a
  inb_S1x4x784x768_S1x4x5x768_0_0_205_0 : ∀ a, (![0, 0, 205, 0] : Fin 4 → Nat) a + S1x4x5x768.size a ≤ S1x4x784x768.size a
  inb_S1x4x784x768_S1x4x1x768_0_0_210_0 : ∀ a, (![0, 0, 210, 0] : Fin 4 → Nat) a + S1x4x1x768.size a ≤ S1x4x784x768.size a
  inb_S1x4x784x768_S1x4x1x768_0_0_211_0 : ∀ a, (![0, 0, 211, 0] : Fin 4 → Nat) a + S1x4x1x768.size a ≤ S1x4x784x768.size a
  inb_S1x4x784x768_S1x4x1x768_0_0_108_0 : ∀ a, (![0, 0, 108, 0] : Fin 4 → Nat) a + S1x4x1x768.size a ≤ S1x4x784x768.size a
  inb_S1x4x784x768_S1x4x1x768_0_0_212_0 : ∀ a, (![0, 0, 212, 0] : Fin 4 → Nat) a + S1x4x1x768.size a ≤ S1x4x784x768.size a
  inb_S1x4x784x768_S1x4x4x768_0_0_213_0 : ∀ a, (![0, 0, 213, 0] : Fin 4 → Nat) a + S1x4x4x768.size a ≤ S1x4x784x768.size a
  inb_S1x4x784x768_S1x4x4x768_0_0_232_0 : ∀ a, (![0, 0, 232, 0] : Fin 4 → Nat) a + S1x4x4x768.size a ≤ S1x4x784x768.size a
  inb_S1x4x784x768_S1x4x4x768_0_0_217_0 : ∀ a, (![0, 0, 217, 0] : Fin 4 → Nat) a + S1x4x4x768.size a ≤ S1x4x784x768.size a
  inb_S1x4x784x768_S1x4x5x768_0_0_244_0 : ∀ a, (![0, 0, 244, 0] : Fin 4 → Nat) a + S1x4x5x768.size a ≤ S1x4x784x768.size a
  inb_S1x4x784x768_S1x4x5x768_0_0_221_0 : ∀ a, (![0, 0, 221, 0] : Fin 4 → Nat) a + S1x4x5x768.size a ≤ S1x4x784x768.size a
  inb_S1x4x784x768_S1x4x5x768_0_0_258_0 : ∀ a, (![0, 0, 258, 0] : Fin 4 → Nat) a + S1x4x5x768.size a ≤ S1x4x784x768.size a
  inb_S1x4x784x768_S1x4x5x768_0_0_226_0 : ∀ a, (![0, 0, 226, 0] : Fin 4 → Nat) a + S1x4x5x768.size a ≤ S1x4x784x768.size a
  inb_S1x4x784x768_S1x4x7x768_0_0_271_0 : ∀ a, (![0, 0, 271, 0] : Fin 4 → Nat) a + S1x4x7x768.size a ≤ S1x4x784x768.size a
  inb_S1x4x784x768_S1x4x7x768_0_0_231_0 : ∀ a, (![0, 0, 231, 0] : Fin 4 → Nat) a + S1x4x7x768.size a ≤ S1x4x784x768.size a
  inb_S1x4x784x768_S1x4x5x768_0_0_286_0 : ∀ a, (![0, 0, 286, 0] : Fin 4 → Nat) a + S1x4x5x768.size a ≤ S1x4x784x768.size a
  inb_S1x4x784x768_S1x4x5x768_0_0_238_0 : ∀ a, (![0, 0, 238, 0] : Fin 4 → Nat) a + S1x4x5x768.size a ≤ S1x4x784x768.size a
  inb_S1x4x784x768_S1x4x1x768_0_0_243_0 : ∀ a, (![0, 0, 243, 0] : Fin 4 → Nat) a + S1x4x1x768.size a ≤ S1x4x784x768.size a
  inb_S1x4x784x768_S1x4x1x768_0_0_244_0 : ∀ a, (![0, 0, 244, 0] : Fin 4 → Nat) a + S1x4x1x768.size a ≤ S1x4x784x768.size a
  inb_S1x4x784x768_S1x4x1x768_0_0_319_0 : ∀ a, (![0, 0, 319, 0] : Fin 4 → Nat) a + S1x4x1x768.size a ≤ S1x4x784x768.size a
  inb_S1x4x784x768_S1x4x1x768_0_0_245_0 : ∀ a, (![0, 0, 245, 0] : Fin 4 → Nat) a + S1x4x1x768.size a ≤ S1x4x784x768.size a
  inb_S1x4x784x768_S1x4x5x768_0_0_410_0 : ∀ a, (![0, 0, 410, 0] : Fin 4 → Nat) a + S1x4x5x768.size a ≤ S1x4x784x768.size a
  inb_S1x4x784x768_S1x4x5x768_0_0_246_0 : ∀ a, (![0, 0, 246, 0] : Fin 4 → Nat) a + S1x4x5x768.size a ≤ S1x4x784x768.size a
  inb_S1x4x784x768_S1x4x5x768_0_0_414_0 : ∀ a, (![0, 0, 414, 0] : Fin 4 → Nat) a + S1x4x5x768.size a ≤ S1x4x784x768.size a
  inb_S1x4x784x768_S1x4x5x768_0_0_251_0 : ∀ a, (![0, 0, 251, 0] : Fin 4 → Nat) a + S1x4x5x768.size a ≤ S1x4x784x768.size a
  inb_S1x4x784x768_S1x4x7x768_0_0_425_0 : ∀ a, (![0, 0, 425, 0] : Fin 4 → Nat) a + S1x4x7x768.size a ≤ S1x4x784x768.size a
  inb_S1x4x784x768_S1x4x7x768_0_0_256_0 : ∀ a, (![0, 0, 256, 0] : Fin 4 → Nat) a + S1x4x7x768.size a ≤ S1x4x784x768.size a
  inb_S1x4x784x768_S1x4x7x768_0_0_439_0 : ∀ a, (![0, 0, 439, 0] : Fin 4 → Nat) a + S1x4x7x768.size a ≤ S1x4x784x768.size a
  inb_S1x4x784x768_S1x4x7x768_0_0_263_0 : ∀ a, (![0, 0, 263, 0] : Fin 4 → Nat) a + S1x4x7x768.size a ≤ S1x4x784x768.size a
  inb_S1x4x784x768_S1x4x7x768_0_0_453_0 : ∀ a, (![0, 0, 453, 0] : Fin 4 → Nat) a + S1x4x7x768.size a ≤ S1x4x784x768.size a
  inb_S1x4x784x768_S1x4x7x768_0_0_270_0 : ∀ a, (![0, 0, 270, 0] : Fin 4 → Nat) a + S1x4x7x768.size a ≤ S1x4x784x768.size a
  inb_S1x4x784x768_S1x4x9x768_0_0_466_0 : ∀ a, (![0, 0, 466, 0] : Fin 4 → Nat) a + S1x4x9x768.size a ≤ S1x4x784x768.size a
  inb_S1x4x784x768_S1x4x9x768_0_0_277_0 : ∀ a, (![0, 0, 277, 0] : Fin 4 → Nat) a + S1x4x9x768.size a ≤ S1x4x784x768.size a
  inb_S1x4x784x768_S1x4x7x768_0_0_481_0 : ∀ a, (![0, 0, 481, 0] : Fin 4 → Nat) a + S1x4x7x768.size a ≤ S1x4x784x768.size a
  inb_S1x4x784x768_S1x4x7x768_0_0_286_0 : ∀ a, (![0, 0, 286, 0] : Fin 4 → Nat) a + S1x4x7x768.size a ≤ S1x4x784x768.size a
  inb_S1x4x784x768_S1x4x7x768_0_0_495_0 : ∀ a, (![0, 0, 495, 0] : Fin 4 → Nat) a + S1x4x7x768.size a ≤ S1x4x784x768.size a
  inb_S1x4x784x768_S1x4x7x768_0_0_293_0 : ∀ a, (![0, 0, 293, 0] : Fin 4 → Nat) a + S1x4x7x768.size a ≤ S1x4x784x768.size a
  inb_S1x4x784x768_S1x4x1x768_0_0_522_0 : ∀ a, (![0, 0, 522, 0] : Fin 4 → Nat) a + S1x4x1x768.size a ≤ S1x4x784x768.size a
  inb_S1x4x784x768_S1x4x1x768_0_0_300_0 : ∀ a, (![0, 0, 300, 0] : Fin 4 → Nat) a + S1x4x1x768.size a ≤ S1x4x784x768.size a
  inb_S1x4x784x768_S1x4x1x768_0_0_526_0 : ∀ a, (![0, 0, 526, 0] : Fin 4 → Nat) a + S1x4x1x768.size a ≤ S1x4x784x768.size a
  inb_S1x4x784x768_S1x4x1x768_0_0_301_0 : ∀ a, (![0, 0, 301, 0] : Fin 4 → Nat) a + S1x4x1x768.size a ≤ S1x4x784x768.size a
  inb_S1x4x784x768_S1x4x1x768_0_0_530_0 : ∀ a, (![0, 0, 530, 0] : Fin 4 → Nat) a + S1x4x1x768.size a ≤ S1x4x784x768.size a
  inb_S1x4x784x768_S1x4x1x768_0_0_302_0 : ∀ a, (![0, 0, 302, 0] : Fin 4 → Nat) a + S1x4x1x768.size a ≤ S1x4x784x768.size a
  inb_S1x4x784x768_S1x4x6x768_0_0_591_0 : ∀ a, (![0, 0, 591, 0] : Fin 4 → Nat) a + S1x4x6x768.size a ≤ S1x4x784x768.size a
  inb_S1x4x784x768_S1x4x6x768_0_0_303_0 : ∀ a, (![0, 0, 303, 0] : Fin 4 → Nat) a + S1x4x6x768.size a ≤ S1x4x784x768.size a
  inb_S1x4x784x768_S1x4x6x768_0_0_596_0 : ∀ a, (![0, 0, 596, 0] : Fin 4 → Nat) a + S1x4x6x768.size a ≤ S1x4x784x768.size a
  inb_S1x4x784x768_S1x4x6x768_0_0_309_0 : ∀ a, (![0, 0, 309, 0] : Fin 4 → Nat) a + S1x4x6x768.size a ≤ S1x4x784x768.size a
  inb_S1x4x784x768_S1x4x9x768_0_0_606_0 : ∀ a, (![0, 0, 606, 0] : Fin 4 → Nat) a + S1x4x9x768.size a ≤ S1x4x784x768.size a
  inb_S1x4x784x768_S1x4x9x768_0_0_315_0 : ∀ a, (![0, 0, 315, 0] : Fin 4 → Nat) a + S1x4x9x768.size a ≤ S1x4x784x768.size a
  inb_S1x4x784x768_S1x4x9x768_0_0_620_0 : ∀ a, (![0, 0, 620, 0] : Fin 4 → Nat) a + S1x4x9x768.size a ≤ S1x4x784x768.size a
  inb_S1x4x784x768_S1x4x9x768_0_0_324_0 : ∀ a, (![0, 0, 324, 0] : Fin 4 → Nat) a + S1x4x9x768.size a ≤ S1x4x784x768.size a
  inb_S1x4x784x768_S1x4x9x768_0_0_634_0 : ∀ a, (![0, 0, 634, 0] : Fin 4 → Nat) a + S1x4x9x768.size a ≤ S1x4x784x768.size a
  inb_S1x4x784x768_S1x4x9x768_0_0_333_0 : ∀ a, (![0, 0, 333, 0] : Fin 4 → Nat) a + S1x4x9x768.size a ≤ S1x4x784x768.size a
  inb_S1x4x784x768_S1x4x9x768_0_0_648_0 : ∀ a, (![0, 0, 648, 0] : Fin 4 → Nat) a + S1x4x9x768.size a ≤ S1x4x784x768.size a
  inb_S1x4x784x768_S1x4x9x768_0_0_342_0 : ∀ a, (![0, 0, 342, 0] : Fin 4 → Nat) a + S1x4x9x768.size a ≤ S1x4x784x768.size a
  inb_S1x4x784x768_S1x4x11x768_0_0_661_0 : ∀ a, (![0, 0, 661, 0] : Fin 4 → Nat) a + S1x4x11x768.size a ≤ S1x4x784x768.size a
  inb_S1x4x784x768_S1x4x11x768_0_0_351_0 : ∀ a, (![0, 0, 351, 0] : Fin 4 → Nat) a + S1x4x11x768.size a ≤ S1x4x784x768.size a
  inb_S1x4x784x768_S1x4x9x768_0_0_676_0 : ∀ a, (![0, 0, 676, 0] : Fin 4 → Nat) a + S1x4x9x768.size a ≤ S1x4x784x768.size a
  inb_S1x4x784x768_S1x4x9x768_0_0_362_0 : ∀ a, (![0, 0, 362, 0] : Fin 4 → Nat) a + S1x4x9x768.size a ≤ S1x4x784x768.size a
  inb_S1x4x784x768_S1x4x9x768_0_0_690_0 : ∀ a, (![0, 0, 690, 0] : Fin 4 → Nat) a + S1x4x9x768.size a ≤ S1x4x784x768.size a
  inb_S1x4x784x768_S1x4x9x768_0_0_371_0 : ∀ a, (![0, 0, 371, 0] : Fin 4 → Nat) a + S1x4x9x768.size a ≤ S1x4x784x768.size a
  inb_S1x4x784x768_S1x4x9x768_0_0_704_0 : ∀ a, (![0, 0, 704, 0] : Fin 4 → Nat) a + S1x4x9x768.size a ≤ S1x4x784x768.size a
  inb_S1x4x784x768_S1x4x9x768_0_0_380_0 : ∀ a, (![0, 0, 380, 0] : Fin 4 → Nat) a + S1x4x9x768.size a ≤ S1x4x784x768.size a
  inb_S1x4x784x768_S1x4x1x768_0_0_731_0 : ∀ a, (![0, 0, 731, 0] : Fin 4 → Nat) a + S1x4x1x768.size a ≤ S1x4x784x768.size a
  inb_S1x4x784x768_S1x4x1x768_0_0_389_0 : ∀ a, (![0, 0, 389, 0] : Fin 4 → Nat) a + S1x4x1x768.size a ≤ S1x4x784x768.size a
  inb_S1x4x784x768_S1x4x1x768_0_0_736_0 : ∀ a, (![0, 0, 736, 0] : Fin 4 → Nat) a + S1x4x1x768.size a ≤ S1x4x784x768.size a
  inb_S1x4x784x768_S1x4x1x768_0_0_390_0 : ∀ a, (![0, 0, 390, 0] : Fin 4 → Nat) a + S1x4x1x768.size a ≤ S1x4x784x768.size a
  inb_S1x4x784x768_S1x4x1x768_0_0_741_0 : ∀ a, (![0, 0, 741, 0] : Fin 4 → Nat) a + S1x4x1x768.size a ≤ S1x4x784x768.size a
  inb_S1x4x784x768_S1x4x1x768_0_0_391_0 : ∀ a, (![0, 0, 391, 0] : Fin 4 → Nat) a + S1x4x1x768.size a ≤ S1x4x784x768.size a
  inb_S1x4x784x768_S1x4x3x768_0_0_87_0 : ∀ a, (![0, 0, 87, 0] : Fin 4 → Nat) a + S1x4x3x768.size a ≤ S1x4x784x768.size a
  inb_S1x4x784x768_S1x4x3x768_0_0_392_0 : ∀ a, (![0, 0, 392, 0] : Fin 4 → Nat) a + S1x4x3x768.size a ≤ S1x4x784x768.size a
  inb_S1x4x784x768_S1x4x3x768_0_0_89_0 : ∀ a, (![0, 0, 89, 0] : Fin 4 → Nat) a + S1x4x3x768.size a ≤ S1x4x784x768.size a
  inb_S1x4x784x768_S1x4x3x768_0_0_395_0 : ∀ a, (![0, 0, 395, 0] : Fin 4 → Nat) a + S1x4x3x768.size a ≤ S1x4x784x768.size a
  inb_S1x4x784x768_S1x4x3x768_0_0_102_0 : ∀ a, (![0, 0, 102, 0] : Fin 4 → Nat) a + S1x4x3x768.size a ≤ S1x4x784x768.size a
  inb_S1x4x784x768_S1x4x3x768_0_0_398_0 : ∀ a, (![0, 0, 398, 0] : Fin 4 → Nat) a + S1x4x3x768.size a ≤ S1x4x784x768.size a
  inb_S1x4x784x768_S1x4x5x768_0_0_115_0 : ∀ a, (![0, 0, 115, 0] : Fin 4 → Nat) a + S1x4x5x768.size a ≤ S1x4x784x768.size a
  inb_S1x4x784x768_S1x4x5x768_0_0_401_0 : ∀ a, (![0, 0, 401, 0] : Fin 4 → Nat) a + S1x4x5x768.size a ≤ S1x4x784x768.size a
  inb_S1x4x784x768_S1x4x1x768_0_0_143_0 : ∀ a, (![0, 0, 143, 0] : Fin 4 → Nat) a + S1x4x1x768.size a ≤ S1x4x784x768.size a
  inb_S1x4x784x768_S1x4x1x768_0_0_406_0 : ∀ a, (![0, 0, 406, 0] : Fin 4 → Nat) a + S1x4x1x768.size a ≤ S1x4x784x768.size a
  inb_S1x4x784x768_S1x4x1x768_0_0_145_0 : ∀ a, (![0, 0, 145, 0] : Fin 4 → Nat) a + S1x4x1x768.size a ≤ S1x4x784x768.size a
  inb_S1x4x784x768_S1x4x1x768_0_0_407_0 : ∀ a, (![0, 0, 407, 0] : Fin 4 → Nat) a + S1x4x1x768.size a ≤ S1x4x784x768.size a
  inb_S1x4x784x768_S1x4x1x768_0_0_147_0 : ∀ a, (![0, 0, 147, 0] : Fin 4 → Nat) a + S1x4x1x768.size a ≤ S1x4x784x768.size a
  inb_S1x4x784x768_S1x4x1x768_0_0_408_0 : ∀ a, (![0, 0, 408, 0] : Fin 4 → Nat) a + S1x4x1x768.size a ≤ S1x4x784x768.size a
  inb_S1x4x784x768_S1x4x4x768_0_0_268_0 : ∀ a, (![0, 0, 268, 0] : Fin 4 → Nat) a + S1x4x4x768.size a ≤ S1x4x784x768.size a
  inb_S1x4x784x768_S1x4x4x768_0_0_409_0 : ∀ a, (![0, 0, 409, 0] : Fin 4 → Nat) a + S1x4x4x768.size a ≤ S1x4x784x768.size a
  inb_S1x4x784x768_S1x4x4x768_0_0_271_0 : ∀ a, (![0, 0, 271, 0] : Fin 4 → Nat) a + S1x4x4x768.size a ≤ S1x4x784x768.size a
  inb_S1x4x784x768_S1x4x4x768_0_0_413_0 : ∀ a, (![0, 0, 413, 0] : Fin 4 → Nat) a + S1x4x4x768.size a ≤ S1x4x784x768.size a
  inb_S1x4x784x768_S1x4x5x768_0_0_417_0 : ∀ a, (![0, 0, 417, 0] : Fin 4 → Nat) a + S1x4x5x768.size a ≤ S1x4x784x768.size a
  inb_S1x4x784x768_S1x4x5x768_0_0_297_0 : ∀ a, (![0, 0, 297, 0] : Fin 4 → Nat) a + S1x4x5x768.size a ≤ S1x4x784x768.size a
  inb_S1x4x784x768_S1x4x5x768_0_0_422_0 : ∀ a, (![0, 0, 422, 0] : Fin 4 → Nat) a + S1x4x5x768.size a ≤ S1x4x784x768.size a
  inb_S1x4x784x768_S1x4x7x768_0_0_310_0 : ∀ a, (![0, 0, 310, 0] : Fin 4 → Nat) a + S1x4x7x768.size a ≤ S1x4x784x768.size a
  inb_S1x4x784x768_S1x4x7x768_0_0_427_0 : ∀ a, (![0, 0, 427, 0] : Fin 4 → Nat) a + S1x4x7x768.size a ≤ S1x4x784x768.size a
  inb_S1x4x784x768_S1x4x5x768_0_0_325_0 : ∀ a, (![0, 0, 325, 0] : Fin 4 → Nat) a + S1x4x5x768.size a ≤ S1x4x784x768.size a
  inb_S1x4x784x768_S1x4x5x768_0_0_434_0 : ∀ a, (![0, 0, 434, 0] : Fin 4 → Nat) a + S1x4x5x768.size a ≤ S1x4x784x768.size a
  inb_S1x4x784x768_S1x4x1x768_0_0_352_0 : ∀ a, (![0, 0, 352, 0] : Fin 4 → Nat) a + S1x4x1x768.size a ≤ S1x4x784x768.size a
  inb_S1x4x784x768_S1x4x1x768_0_0_439_0 : ∀ a, (![0, 0, 439, 0] : Fin 4 → Nat) a + S1x4x1x768.size a ≤ S1x4x784x768.size a
  inb_S1x4x784x768_S1x4x1x768_0_0_355_0 : ∀ a, (![0, 0, 355, 0] : Fin 4 → Nat) a + S1x4x1x768.size a ≤ S1x4x784x768.size a
  inb_S1x4x784x768_S1x4x1x768_0_0_440_0 : ∀ a, (![0, 0, 440, 0] : Fin 4 → Nat) a + S1x4x1x768.size a ≤ S1x4x784x768.size a
  inb_S1x4x784x768_S1x4x1x768_0_0_358_0 : ∀ a, (![0, 0, 358, 0] : Fin 4 → Nat) a + S1x4x1x768.size a ≤ S1x4x784x768.size a
  inb_S1x4x784x768_S1x4x1x768_0_0_441_0 : ∀ a, (![0, 0, 441, 0] : Fin 4 → Nat) a + S1x4x1x768.size a ≤ S1x4x784x768.size a
  inb_S1x4x784x768_S1x4x5x768_0_0_449_0 : ∀ a, (![0, 0, 449, 0] : Fin 4 → Nat) a + S1x4x5x768.size a ≤ S1x4x784x768.size a
  inb_S1x4x784x768_S1x4x5x768_0_0_442_0 : ∀ a, (![0, 0, 442, 0] : Fin 4 → Nat) a + S1x4x5x768.size a ≤ S1x4x784x768.size a
  inb_S1x4x784x768_S1x4x5x768_0_0_453_0 : ∀ a, (![0, 0, 453, 0] : Fin 4 → Nat) a + S1x4x5x768.size a ≤ S1x4x784x768.size a
  inb_S1x4x784x768_S1x4x5x768_0_0_447_0 : ∀ a, (![0, 0, 447, 0] : Fin 4 → Nat) a + S1x4x5x768.size a ≤ S1x4x784x768.size a
  inb_S1x4x784x768_S1x4x7x768_0_0_464_0 : ∀ a, (![0, 0, 464, 0] : Fin 4 → Nat) a + S1x4x7x768.size a ≤ S1x4x784x768.size a
  inb_S1x4x784x768_S1x4x7x768_0_0_452_0 : ∀ a, (![0, 0, 452, 0] : Fin 4 → Nat) a + S1x4x7x768.size a ≤ S1x4x784x768.size a
  inb_S1x4x784x768_S1x4x7x768_0_0_459_0 : ∀ a, (![0, 0, 459, 0] : Fin 4 → Nat) a + S1x4x7x768.size a ≤ S1x4x784x768.size a
  inb_S1x4x784x768_S1x4x7x768_0_0_466_0 : ∀ a, (![0, 0, 466, 0] : Fin 4 → Nat) a + S1x4x7x768.size a ≤ S1x4x784x768.size a
  inb_S1x4x784x768_S1x4x9x768_0_0_505_0 : ∀ a, (![0, 0, 505, 0] : Fin 4 → Nat) a + S1x4x9x768.size a ≤ S1x4x784x768.size a
  inb_S1x4x784x768_S1x4x9x768_0_0_473_0 : ∀ a, (![0, 0, 473, 0] : Fin 4 → Nat) a + S1x4x9x768.size a ≤ S1x4x784x768.size a
  inb_S1x4x784x768_S1x4x7x768_0_0_520_0 : ∀ a, (![0, 0, 520, 0] : Fin 4 → Nat) a + S1x4x7x768.size a ≤ S1x4x784x768.size a
  inb_S1x4x784x768_S1x4x7x768_0_0_482_0 : ∀ a, (![0, 0, 482, 0] : Fin 4 → Nat) a + S1x4x7x768.size a ≤ S1x4x784x768.size a
  inb_S1x4x784x768_S1x4x7x768_0_0_534_0 : ∀ a, (![0, 0, 534, 0] : Fin 4 → Nat) a + S1x4x7x768.size a ≤ S1x4x784x768.size a
  inb_S1x4x784x768_S1x4x7x768_0_0_489_0 : ∀ a, (![0, 0, 489, 0] : Fin 4 → Nat) a + S1x4x7x768.size a ≤ S1x4x784x768.size a
  inb_S1x4x784x768_S1x4x1x768_0_0_561_0 : ∀ a, (![0, 0, 561, 0] : Fin 4 → Nat) a + S1x4x1x768.size a ≤ S1x4x784x768.size a
  inb_S1x4x784x768_S1x4x1x768_0_0_496_0 : ∀ a, (![0, 0, 496, 0] : Fin 4 → Nat) a + S1x4x1x768.size a ≤ S1x4x784x768.size a
  inb_S1x4x784x768_S1x4x1x768_0_0_565_0 : ∀ a, (![0, 0, 565, 0] : Fin 4 → Nat) a + S1x4x1x768.size a ≤ S1x4x784x768.size a
  inb_S1x4x784x768_S1x4x1x768_0_0_497_0 : ∀ a, (![0, 0, 497, 0] : Fin 4 → Nat) a + S1x4x1x768.size a ≤ S1x4x784x768.size a
  inb_S1x4x784x768_S1x4x1x768_0_0_569_0 : ∀ a, (![0, 0, 569, 0] : Fin 4 → Nat) a + S1x4x1x768.size a ≤ S1x4x784x768.size a
  inb_S1x4x784x768_S1x4x1x768_0_0_498_0 : ∀ a, (![0, 0, 498, 0] : Fin 4 → Nat) a + S1x4x1x768.size a ≤ S1x4x784x768.size a
  inb_S1x4x784x768_S1x4x6x768_0_0_630_0 : ∀ a, (![0, 0, 630, 0] : Fin 4 → Nat) a + S1x4x6x768.size a ≤ S1x4x784x768.size a
  inb_S1x4x784x768_S1x4x6x768_0_0_499_0 : ∀ a, (![0, 0, 499, 0] : Fin 4 → Nat) a + S1x4x6x768.size a ≤ S1x4x784x768.size a
  inb_S1x4x784x768_S1x4x6x768_0_0_635_0 : ∀ a, (![0, 0, 635, 0] : Fin 4 → Nat) a + S1x4x6x768.size a ≤ S1x4x784x768.size a
  inb_S1x4x784x768_S1x4x6x768_0_0_505_0 : ∀ a, (![0, 0, 505, 0] : Fin 4 → Nat) a + S1x4x6x768.size a ≤ S1x4x784x768.size a
  inb_S1x4x784x768_S1x4x9x768_0_0_511_0 : ∀ a, (![0, 0, 511, 0] : Fin 4 → Nat) a + S1x4x9x768.size a ≤ S1x4x784x768.size a
  inb_S1x4x784x768_S1x4x9x768_0_0_659_0 : ∀ a, (![0, 0, 659, 0] : Fin 4 → Nat) a + S1x4x9x768.size a ≤ S1x4x784x768.size a
  inb_S1x4x784x768_S1x4x9x768_0_0_520_0 : ∀ a, (![0, 0, 520, 0] : Fin 4 → Nat) a + S1x4x9x768.size a ≤ S1x4x784x768.size a
  inb_S1x4x784x768_S1x4x9x768_0_0_529_0 : ∀ a, (![0, 0, 529, 0] : Fin 4 → Nat) a + S1x4x9x768.size a ≤ S1x4x784x768.size a
  inb_S1x4x784x768_S1x4x9x768_0_0_538_0 : ∀ a, (![0, 0, 538, 0] : Fin 4 → Nat) a + S1x4x9x768.size a ≤ S1x4x784x768.size a
  inb_S1x4x784x768_S1x4x11x768_0_0_700_0 : ∀ a, (![0, 0, 700, 0] : Fin 4 → Nat) a + S1x4x11x768.size a ≤ S1x4x784x768.size a
  inb_S1x4x784x768_S1x4x11x768_0_0_547_0 : ∀ a, (![0, 0, 547, 0] : Fin 4 → Nat) a + S1x4x11x768.size a ≤ S1x4x784x768.size a
  inb_S1x4x784x768_S1x4x9x768_0_0_715_0 : ∀ a, (![0, 0, 715, 0] : Fin 4 → Nat) a + S1x4x9x768.size a ≤ S1x4x784x768.size a
  inb_S1x4x784x768_S1x4x9x768_0_0_558_0 : ∀ a, (![0, 0, 558, 0] : Fin 4 → Nat) a + S1x4x9x768.size a ≤ S1x4x784x768.size a
  inb_S1x4x784x768_S1x4x9x768_0_0_729_0 : ∀ a, (![0, 0, 729, 0] : Fin 4 → Nat) a + S1x4x9x768.size a ≤ S1x4x784x768.size a
  inb_S1x4x784x768_S1x4x9x768_0_0_567_0 : ∀ a, (![0, 0, 567, 0] : Fin 4 → Nat) a + S1x4x9x768.size a ≤ S1x4x784x768.size a
  inb_S1x4x784x768_S1x4x9x768_0_0_743_0 : ∀ a, (![0, 0, 743, 0] : Fin 4 → Nat) a + S1x4x9x768.size a ≤ S1x4x784x768.size a
  inb_S1x4x784x768_S1x4x9x768_0_0_576_0 : ∀ a, (![0, 0, 576, 0] : Fin 4 → Nat) a + S1x4x9x768.size a ≤ S1x4x784x768.size a
  inb_S1x4x784x768_S1x4x1x768_0_0_770_0 : ∀ a, (![0, 0, 770, 0] : Fin 4 → Nat) a + S1x4x1x768.size a ≤ S1x4x784x768.size a
  inb_S1x4x784x768_S1x4x1x768_0_0_585_0 : ∀ a, (![0, 0, 585, 0] : Fin 4 → Nat) a + S1x4x1x768.size a ≤ S1x4x784x768.size a
  inb_S1x4x784x768_S1x4x1x768_0_0_775_0 : ∀ a, (![0, 0, 775, 0] : Fin 4 → Nat) a + S1x4x1x768.size a ≤ S1x4x784x768.size a
  inb_S1x4x784x768_S1x4x1x768_0_0_586_0 : ∀ a, (![0, 0, 586, 0] : Fin 4 → Nat) a + S1x4x1x768.size a ≤ S1x4x784x768.size a
  inb_S1x4x784x768_S1x4x1x768_0_0_780_0 : ∀ a, (![0, 0, 780, 0] : Fin 4 → Nat) a + S1x4x1x768.size a ≤ S1x4x784x768.size a
  inb_S1x4x784x768_S1x4x1x768_0_0_587_0 : ∀ a, (![0, 0, 587, 0] : Fin 4 → Nat) a + S1x4x1x768.size a ≤ S1x4x784x768.size a
  inb_S1x4x784x768_S1x4x3x768_0_0_90_0 : ∀ a, (![0, 0, 90, 0] : Fin 4 → Nat) a + S1x4x3x768.size a ≤ S1x4x784x768.size a
  inb_S1x4x784x768_S1x4x3x768_0_0_588_0 : ∀ a, (![0, 0, 588, 0] : Fin 4 → Nat) a + S1x4x3x768.size a ≤ S1x4x784x768.size a
  inb_S1x4x784x768_S1x4x3x768_0_0_92_0 : ∀ a, (![0, 0, 92, 0] : Fin 4 → Nat) a + S1x4x3x768.size a ≤ S1x4x784x768.size a
  inb_S1x4x784x768_S1x4x3x768_0_0_591_0 : ∀ a, (![0, 0, 591, 0] : Fin 4 → Nat) a + S1x4x3x768.size a ≤ S1x4x784x768.size a
  inb_S1x4x784x768_S1x4x3x768_0_0_105_0 : ∀ a, (![0, 0, 105, 0] : Fin 4 → Nat) a + S1x4x3x768.size a ≤ S1x4x784x768.size a
  inb_S1x4x784x768_S1x4x3x768_0_0_594_0 : ∀ a, (![0, 0, 594, 0] : Fin 4 → Nat) a + S1x4x3x768.size a ≤ S1x4x784x768.size a
  inb_S1x4x784x768_S1x4x5x768_0_0_118_0 : ∀ a, (![0, 0, 118, 0] : Fin 4 → Nat) a + S1x4x5x768.size a ≤ S1x4x784x768.size a
  inb_S1x4x784x768_S1x4x5x768_0_0_597_0 : ∀ a, (![0, 0, 597, 0] : Fin 4 → Nat) a + S1x4x5x768.size a ≤ S1x4x784x768.size a
  inb_S1x4x784x768_S1x4x1x768_0_0_146_0 : ∀ a, (![0, 0, 146, 0] : Fin 4 → Nat) a + S1x4x1x768.size a ≤ S1x4x784x768.size a
  inb_S1x4x784x768_S1x4x1x768_0_0_602_0 : ∀ a, (![0, 0, 602, 0] : Fin 4 → Nat) a + S1x4x1x768.size a ≤ S1x4x784x768.size a
  inb_S1x4x784x768_S1x4x1x768_0_0_148_0 : ∀ a, (![0, 0, 148, 0] : Fin 4 → Nat) a + S1x4x1x768.size a ≤ S1x4x784x768.size a
  inb_S1x4x784x768_S1x4x1x768_0_0_603_0 : ∀ a, (![0, 0, 603, 0] : Fin 4 → Nat) a + S1x4x1x768.size a ≤ S1x4x784x768.size a
  inb_S1x4x784x768_S1x4x1x768_0_0_150_0 : ∀ a, (![0, 0, 150, 0] : Fin 4 → Nat) a + S1x4x1x768.size a ≤ S1x4x784x768.size a
  inb_S1x4x784x768_S1x4x1x768_0_0_604_0 : ∀ a, (![0, 0, 604, 0] : Fin 4 → Nat) a + S1x4x1x768.size a ≤ S1x4x784x768.size a
  inb_S1x4x784x768_S1x4x4x768_0_0_605_0 : ∀ a, (![0, 0, 605, 0] : Fin 4 → Nat) a + S1x4x4x768.size a ≤ S1x4x784x768.size a
  inb_S1x4x784x768_S1x4x4x768_0_0_274_0 : ∀ a, (![0, 0, 274, 0] : Fin 4 → Nat) a + S1x4x4x768.size a ≤ S1x4x784x768.size a
  inb_S1x4x784x768_S1x4x4x768_0_0_609_0 : ∀ a, (![0, 0, 609, 0] : Fin 4 → Nat) a + S1x4x4x768.size a ≤ S1x4x784x768.size a
  inb_S1x4x784x768_S1x4x5x768_0_0_613_0 : ∀ a, (![0, 0, 613, 0] : Fin 4 → Nat) a + S1x4x5x768.size a ≤ S1x4x784x768.size a
  inb_S1x4x784x768_S1x4x5x768_0_0_300_0 : ∀ a, (![0, 0, 300, 0] : Fin 4 → Nat) a + S1x4x5x768.size a ≤ S1x4x784x768.size a
  inb_S1x4x784x768_S1x4x5x768_0_0_618_0 : ∀ a, (![0, 0, 618, 0] : Fin 4 → Nat) a + S1x4x5x768.size a ≤ S1x4x784x768.size a
  inb_S1x4x784x768_S1x4x7x768_0_0_313_0 : ∀ a, (![0, 0, 313, 0] : Fin 4 → Nat) a + S1x4x7x768.size a ≤ S1x4x784x768.size a
  inb_S1x4x784x768_S1x4x7x768_0_0_623_0 : ∀ a, (![0, 0, 623, 0] : Fin 4 → Nat) a + S1x4x7x768.size a ≤ S1x4x784x768.size a
  inb_S1x4x784x768_S1x4x5x768_0_0_328_0 : ∀ a, (![0, 0, 328, 0] : Fin 4 → Nat) a + S1x4x5x768.size a ≤ S1x4x784x768.size a
  inb_S1x4x784x768_S1x4x5x768_0_0_630_0 : ∀ a, (![0, 0, 630, 0] : Fin 4 → Nat) a + S1x4x5x768.size a ≤ S1x4x784x768.size a
  inb_S1x4x784x768_S1x4x1x768_0_0_635_0 : ∀ a, (![0, 0, 635, 0] : Fin 4 → Nat) a + S1x4x1x768.size a ≤ S1x4x784x768.size a
  inb_S1x4x784x768_S1x4x1x768_0_0_636_0 : ∀ a, (![0, 0, 636, 0] : Fin 4 → Nat) a + S1x4x1x768.size a ≤ S1x4x784x768.size a
  inb_S1x4x784x768_S1x4x1x768_0_0_361_0 : ∀ a, (![0, 0, 361, 0] : Fin 4 → Nat) a + S1x4x1x768.size a ≤ S1x4x784x768.size a
  inb_S1x4x784x768_S1x4x1x768_0_0_637_0 : ∀ a, (![0, 0, 637, 0] : Fin 4 → Nat) a + S1x4x1x768.size a ≤ S1x4x784x768.size a
  inb_S1x4x784x768_S1x4x5x768_0_0_452_0 : ∀ a, (![0, 0, 452, 0] : Fin 4 → Nat) a + S1x4x5x768.size a ≤ S1x4x784x768.size a
  inb_S1x4x784x768_S1x4x5x768_0_0_638_0 : ∀ a, (![0, 0, 638, 0] : Fin 4 → Nat) a + S1x4x5x768.size a ≤ S1x4x784x768.size a
  inb_S1x4x784x768_S1x4x5x768_0_0_456_0 : ∀ a, (![0, 0, 456, 0] : Fin 4 → Nat) a + S1x4x5x768.size a ≤ S1x4x784x768.size a
  inb_S1x4x784x768_S1x4x5x768_0_0_643_0 : ∀ a, (![0, 0, 643, 0] : Fin 4 → Nat) a + S1x4x5x768.size a ≤ S1x4x784x768.size a
  inb_S1x4x784x768_S1x4x7x768_0_0_467_0 : ∀ a, (![0, 0, 467, 0] : Fin 4 → Nat) a + S1x4x7x768.size a ≤ S1x4x784x768.size a
  inb_S1x4x784x768_S1x4x7x768_0_0_648_0 : ∀ a, (![0, 0, 648, 0] : Fin 4 → Nat) a + S1x4x7x768.size a ≤ S1x4x784x768.size a
  inb_S1x4x784x768_S1x4x7x768_0_0_655_0 : ∀ a, (![0, 0, 655, 0] : Fin 4 → Nat) a + S1x4x7x768.size a ≤ S1x4x784x768.size a
  inb_S1x4x784x768_S1x4x7x768_0_0_662_0 : ∀ a, (![0, 0, 662, 0] : Fin 4 → Nat) a + S1x4x7x768.size a ≤ S1x4x784x768.size a
  inb_S1x4x784x768_S1x4x9x768_0_0_508_0 : ∀ a, (![0, 0, 508, 0] : Fin 4 → Nat) a + S1x4x9x768.size a ≤ S1x4x784x768.size a
  inb_S1x4x784x768_S1x4x9x768_0_0_669_0 : ∀ a, (![0, 0, 669, 0] : Fin 4 → Nat) a + S1x4x9x768.size a ≤ S1x4x784x768.size a
  inb_S1x4x784x768_S1x4x7x768_0_0_523_0 : ∀ a, (![0, 0, 523, 0] : Fin 4 → Nat) a + S1x4x7x768.size a ≤ S1x4x784x768.size a
  inb_S1x4x784x768_S1x4x7x768_0_0_678_0 : ∀ a, (![0, 0, 678, 0] : Fin 4 → Nat) a + S1x4x7x768.size a ≤ S1x4x784x768.size a
  inb_S1x4x784x768_S1x4x7x768_0_0_537_0 : ∀ a, (![0, 0, 537, 0] : Fin 4 → Nat) a + S1x4x7x768.size a ≤ S1x4x784x768.size a
  inb_S1x4x784x768_S1x4x7x768_0_0_685_0 : ∀ a, (![0, 0, 685, 0] : Fin 4 → Nat) a + S1x4x7x768.size a ≤ S1x4x784x768.size a
  inb_S1x4x784x768_S1x4x1x768_0_0_564_0 : ∀ a, (![0, 0, 564, 0] : Fin 4 → Nat) a + S1x4x1x768.size a ≤ S1x4x784x768.size a
  inb_S1x4x784x768_S1x4x1x768_0_0_692_0 : ∀ a, (![0, 0, 692, 0] : Fin 4 → Nat) a + S1x4x1x768.size a ≤ S1x4x784x768.size a
  inb_S1x4x784x768_S1x4x1x768_0_0_568_0 : ∀ a, (![0, 0, 568, 0] : Fin 4 → Nat) a + S1x4x1x768.size a ≤ S1x4x784x768.size a
  inb_S1x4x784x768_S1x4x1x768_0_0_693_0 : ∀ a, (![0, 0, 693, 0] : Fin 4 → Nat) a + S1x4x1x768.size a ≤ S1x4x784x768.size a
  inb_S1x4x784x768_S1x4x1x768_0_0_572_0 : ∀ a, (![0, 0, 572, 0] : Fin 4 → Nat) a + S1x4x1x768.size a ≤ S1x4x784x768.size a
  inb_S1x4x784x768_S1x4x1x768_0_0_694_0 : ∀ a, (![0, 0, 694, 0] : Fin 4 → Nat) a + S1x4x1x768.size a ≤ S1x4x784x768.size a
  inb_S1x4x784x768_S1x4x6x768_0_0_633_0 : ∀ a, (![0, 0, 633, 0] : Fin 4 → Nat) a + S1x4x6x768.size a ≤ S1x4x784x768.size a
  inb_S1x4x784x768_S1x4x6x768_0_0_695_0 : ∀ a, (![0, 0, 695, 0] : Fin 4 → Nat) a + S1x4x6x768.size a ≤ S1x4x784x768.size a
  inb_S1x4x784x768_S1x4x6x768_0_0_638_0 : ∀ a, (![0, 0, 638, 0] : Fin 4 → Nat) a + S1x4x6x768.size a ≤ S1x4x784x768.size a
  inb_S1x4x784x768_S1x4x6x768_0_0_701_0 : ∀ a, (![0, 0, 701, 0] : Fin 4 → Nat) a + S1x4x6x768.size a ≤ S1x4x784x768.size a
  inb_S1x4x784x768_S1x4x9x768_0_0_707_0 : ∀ a, (![0, 0, 707, 0] : Fin 4 → Nat) a + S1x4x9x768.size a ≤ S1x4x784x768.size a
  inb_S1x4x784x768_S1x4x9x768_0_0_662_0 : ∀ a, (![0, 0, 662, 0] : Fin 4 → Nat) a + S1x4x9x768.size a ≤ S1x4x784x768.size a
  inb_S1x4x784x768_S1x4x9x768_0_0_716_0 : ∀ a, (![0, 0, 716, 0] : Fin 4 → Nat) a + S1x4x9x768.size a ≤ S1x4x784x768.size a
  inb_S1x4x784x768_S1x4x9x768_0_0_725_0 : ∀ a, (![0, 0, 725, 0] : Fin 4 → Nat) a + S1x4x9x768.size a ≤ S1x4x784x768.size a
  inb_S1x4x784x768_S1x4x9x768_0_0_734_0 : ∀ a, (![0, 0, 734, 0] : Fin 4 → Nat) a + S1x4x9x768.size a ≤ S1x4x784x768.size a
  inb_S1x4x784x768_S1x4x11x768_0_0_703_0 : ∀ a, (![0, 0, 703, 0] : Fin 4 → Nat) a + S1x4x11x768.size a ≤ S1x4x784x768.size a
  inb_S1x4x784x768_S1x4x11x768_0_0_743_0 : ∀ a, (![0, 0, 743, 0] : Fin 4 → Nat) a + S1x4x11x768.size a ≤ S1x4x784x768.size a
  inb_S1x4x784x768_S1x4x9x768_0_0_718_0 : ∀ a, (![0, 0, 718, 0] : Fin 4 → Nat) a + S1x4x9x768.size a ≤ S1x4x784x768.size a
  inb_S1x4x784x768_S1x4x9x768_0_0_754_0 : ∀ a, (![0, 0, 754, 0] : Fin 4 → Nat) a + S1x4x9x768.size a ≤ S1x4x784x768.size a
  inb_S1x4x784x768_S1x4x9x768_0_0_732_0 : ∀ a, (![0, 0, 732, 0] : Fin 4 → Nat) a + S1x4x9x768.size a ≤ S1x4x784x768.size a
  inb_S1x4x784x768_S1x4x9x768_0_0_763_0 : ∀ a, (![0, 0, 763, 0] : Fin 4 → Nat) a + S1x4x9x768.size a ≤ S1x4x784x768.size a
  inb_S1x4x784x768_S1x4x9x768_0_0_746_0 : ∀ a, (![0, 0, 746, 0] : Fin 4 → Nat) a + S1x4x9x768.size a ≤ S1x4x784x768.size a
  inb_S1x4x784x768_S1x4x9x768_0_0_772_0 : ∀ a, (![0, 0, 772, 0] : Fin 4 → Nat) a + S1x4x9x768.size a ≤ S1x4x784x768.size a
  inb_S1x4x784x768_S1x4x1x768_0_0_773_0 : ∀ a, (![0, 0, 773, 0] : Fin 4 → Nat) a + S1x4x1x768.size a ≤ S1x4x784x768.size a
  inb_S1x4x784x768_S1x4x1x768_0_0_781_0 : ∀ a, (![0, 0, 781, 0] : Fin 4 → Nat) a + S1x4x1x768.size a ≤ S1x4x784x768.size a
  inb_S1x4x784x768_S1x4x1x768_0_0_778_0 : ∀ a, (![0, 0, 778, 0] : Fin 4 → Nat) a + S1x4x1x768.size a ≤ S1x4x784x768.size a
  inb_S1x4x784x768_S1x4x1x768_0_0_782_0 : ∀ a, (![0, 0, 782, 0] : Fin 4 → Nat) a + S1x4x1x768.size a ≤ S1x4x784x768.size a
  inb_S1x4x784x768_S1x4x1x768_0_0_783_0 : ∀ a, (![0, 0, 783, 0] : Fin 4 → Nat) a + S1x4x1x768.size a ≤ S1x4x784x768.size a
  shapeCasts_S8x8x784x768_S8x32x196x768 : S8x8x784x768.ShapeCasts S8x32x196x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x784x768.size a ≤ S8x8x784x768.size a
  hwx0_0 : ∀ i : grid0.Coords, EltTy.bits .f32 = 32 ∨ (Rect.block (s := S8x8x784x768) S1x4x784x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x784x768.size a ≤ S8x8x784x768.size a
  hwx0_1 : ∀ i : grid0.Coords, EltTy.bits .f32 = 32 ∨ (Rect.block (s := S8x8x784x768) S1x4x784x768.size (cc0_transform_1 i) (hinb0_1 i)).WholeWords (EltTy.packing .f32)

variable [Facts₀]

abbrev win0_0 : Pipeline.Window sig grid0 :=
  Pipeline.Window.ofSpec (Memref.whole main_v0) S1x4x784x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x784x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x32x196x768 : Shape := ⟨4, ![8, 32, 196, 768]⟩
abbrev S4x196 : Shape := ⟨2, ![4, 196]⟩
abbrev S8 : Shape := ⟨1, ![8]⟩
abbrev S8x1x1 : Shape := ⟨3, ![8, 1, 1]⟩
abbrev S_ : Shape := ⟨0, ![]⟩
abbrev S1x4x196 : Shape := ⟨3, ![1, 4, 196]⟩
abbrev S8x4x196 : Shape := ⟨3, ![8, 4, 196]⟩
abbrev S8x4x196x1 : Shape := ⟨4, ![8, 4, 196, 1]⟩
abbrev S8x4x196x2 : Shape := ⟨4, ![8, 4, 196, 2]⟩
abbrev S8x8x4x196x768 : Shape := ⟨5, ![8, 8, 4, 196, 768]⟩

abbrev nBuf : Space → Nat
  | .hbm => 33
  | .vmem => 0
  | .smem => 0
  | _ => 0

abbrev bufTy : (tb : Table) → Fin (tcTables nBuf tb) → BufTy
  | .hbm, ⟨0, _⟩ => ⟨S8x32x196x768, .f32⟩
  | .hbm, ⟨1, _⟩ => ⟨S4x196, .i32⟩
  | .hbm, ⟨2, _⟩ => ⟨S4x196, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i32⟩
  | .hbm, ⟨8, _⟩ => ⟨S1x4x196, .i32⟩
  | .hbm, ⟨9, _⟩ => ⟨S8x4x196, .i32⟩
  | .hbm, ⟨10, _⟩ => ⟨S8x4x196, .i32⟩
  | .hbm, ⟨11, _⟩ => ⟨S8x4x196, .i32⟩
  | .hbm, ⟨12, _⟩ => ⟨S1x4x196, .i32⟩
  | .hbm, ⟨13, _⟩ => ⟨S8x4x196, .i32⟩
  | .hbm, ⟨14, _⟩ => ⟨S_, .i32⟩
  | .hbm, ⟨15, _⟩ => ⟨S8x4x196, .i32⟩
  | .hbm, ⟨16, _⟩ => ⟨S8x4x196, .i1⟩
  | .hbm, ⟨17, _⟩ => ⟨S_, .i32⟩
  | .hbm, ⟨18, _⟩ => ⟨S8x4x196, .i32⟩
  | .hbm, ⟨19, _⟩ => ⟨S8x4x196, .i32⟩
  | .hbm, ⟨20, _⟩ => ⟨S8x4x196, .i32⟩
  | .hbm, ⟨21, _⟩ => ⟨S_, .i32⟩
  | .hbm, ⟨22, _⟩ => ⟨S8x4x196, .i32⟩
  | .hbm, ⟨23, _⟩ => ⟨S8x4x196, .i1⟩
  | .hbm, ⟨24, _⟩ => ⟨S_, .i32⟩
  | .hbm, ⟨25, _⟩ => ⟨S8x4x196, .i32⟩
  | .hbm, ⟨26, _⟩ => ⟨S8x4x196, .i32⟩
  | .hbm, ⟨27, _⟩ => ⟨S8x4x196, .i32⟩
  | .hbm, ⟨28, _⟩ => ⟨S8x4x196x1, .i32⟩
  | .hbm, ⟨29, _⟩ => ⟨S8x4x196x1, .i32⟩
  | .hbm, ⟨30, _⟩ => ⟨S8x4x196x2, .i32⟩
  | .hbm, ⟨31, _⟩ => ⟨S8x8x4x196x768, .f32⟩
  | .hbm, ⟨32, _⟩ => ⟨S8x32x196x768, .f32⟩
  | _, _ => ⟨S8x32x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_c_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S4x196_S1x4x196_1_2 : S4x196.BroadcastsInDim S1x4x196 (![1, 2] : Fin 2 → Fin S1x4x196.rank)
  bcast_S8x1x1_S8x4x196_0_1_2 : S8x1x1.BroadcastsInDim S8x4x196 (![0, 1, 2] : Fin 3 → Fin S8x4x196.rank)
  bcast_S1x4x196_S8x4x196_0_1_2 : S1x4x196.BroadcastsInDim S8x4x196 (![0, 1, 2] : Fin 3 → Fin S8x4x196.rank)
  bcast_S_S8x4x196 : S_.BroadcastsInDim S8x4x196 (![] : Fin 0 → Fin S8x4x196.rank)
  bcast_S8x4x196_S8x4x196x1_0_1_2 : S8x4x196.BroadcastsInDim S8x4x196x1 (![0, 1, 2] : Fin 3 → Fin S8x4x196x1.rank)
  concatenates_S8x4x196x1_S8x4x196x1_S8x4x196x2_d3 : Shape.Concatenates [S8x4x196x1, S8x4x196x1] S8x4x196x2 3
  shapeCasts_S8x8x4x196x768_S8x32x196x768 : S8x8x4x196x768.ShapeCasts S8x32x196x768
  gather_S8x32x196x768_S8x4x196x2_S8x8x4x196x768_04_12_n_n_12_3_811768_wf : GatherDims.WF S8x32x196x768 S8x4x196x2 S8x8x4x196x768 [0, 4] [1, 2] [] [1, 2] [] 3 ![8, 1, 1, 768]

variable [Facts₀]

def gather_S8x32x196x768_S8x4x196x2_S8x8x4x196x768_04_12_n_n_12_3_811768 : GatherDims S8x32x196x768 S8x4x196x2 S8x8x4x196x768 where
  offsetDims := [0, 4]
  collapsedSliceDims := [1, 2]
  operandBatchingDims := []
  startIndicesBatchingDims := []
  startIndexMap := [1, 2]
  indexVectorDim := 3
  sliceSizes := ![8, 1, 1, 768]
  wf := gather_S8x32x196x768_S8x4x196x2_S8x8x4x196x768_04_12_n_n_12_3_811768_wf

class Facts : Prop extends Facts₀ where

variable [Facts]
-- ==== Proof.Table.lean ====
/-
  The tube's index table, as the reference states it: for a destination row `r = s·196 + k` of a four-frame group
  (`s` the spatial start's number, `k` the token's place in the tube) the frame offset inside the group (0…3) and the
  token (0…195) that row copies. The two printed literal tables hold exactly these numbers; here they are read as
  naturals, bounded by inspection of all 784 entries, and combined into the source row `frameOff · 196 + token` of the
  group flattened to 784 rows — the row the kernel's slice copies read.
-/
import proofs.«430312_j6047313953523_3_alg».proof.ReferenceIdeal

namespace Cert.Tube

open Idealize.ShloMosaic

/-- The frame offset inside its four-frame group that destination row `r` copies from. -/
def frameOff (r : Fin 784) : ℕ := (Cert.ReferenceIdeal.lit0 r).toNat

/-- The token of that frame that destination row `r` copies. -/
def token (r : Fin 784) : ℕ := (Cert.ReferenceIdeal.lit1 r).toNat

/-- Every frame offset is one of the group's four frames. -/
theorem frameOff_lt : ∀ r : Fin 784, frameOff r < 4 := by
  unfold frameOff; decide +kernel

/-- Every token is one of the frame's 196. -/
theorem token_lt : ∀ r : Fin 784, token r < 196 := by
  unfold token; decide +kernel

/-- The source row of the flattened group: frame offset × 196 + token. -/
def srcRow (r : Fin 784) : Fin 784 :=
  ⟨frameOff r * 196 + token r, by have := frameOff_lt r; have := token_lt r; omega⟩

theorem srcRow_val (r : Fin 784) : (srcRow r).val = frameOff r * 196 + token r := rfl

/-- The source row's frame is the frame offset … -/
theorem srcRow_div (r : Fin 784) : (srcRow r).val / 196 = frameOff r := by
  have := token_lt r; rw [srcRow_val]; omega

/-- … and its place in that frame the token. -/
theorem srcRow_mod (r : Fin 784) : (srcRow r).val % 196 = token r := by
  have := token_lt r; rw [srcRow_val]; omega

end Cert.Tube
-- ==== Proof.KernelBlock.lean ====
/-
  What one run of the kernel body leaves in its output block, as ONE function of its input block.
  The body is 160 slice copies: rows d0 … d0+L-1 of the output block [1, 4, 784, 768] receive rows s0 … s0+L-1 of the input
  block, for all four frames of the group and all channels at once (the two reshapes each copy passes through cancel). Every
  run (d0, s0, L) is a stretch of the index table along which the source row advances with the destination row:
  srcRow (d0 + j) = s0 + j. So each piece is the restriction of the one function "output row r is input row srcRow r", and
  since the pieces cover the block, the block is that function.
-/
import proofs.«430312_j6047313953523_3_alg».proof.Proof.Gen.KernelIdeal.Frame
import proofs.«430312_j6047313953523_3_alg».proof.Proof.Table
import Idealize.ShloMosaic.Lib.Pipeline.Value
import Idealize.ShloMosaic.Lib.ValueIdx
import Idealize.ShloMosaic.Lib.Tactic

set_option maxRecDepth 16384

noncomputable section

namespace Cert.KernelIdeal.Block

open Cert.KernelIdeal Cert.KernelIdeal.Gen Cert.Tube
open Idealize.ShloMosaic Idealize.ShloMosaic.TcCoe Idealize.ShloMosaic.Tactic Idealize.ShloMosaic.ValueIdx Idealize.SL.Sem

variable {F : FTy → Type} [FloatOps F]

/-- The source row as a function on naturals, straight off the two tables (for deciding a run's rows). -/
def srcRowN (n : ℕ) : ℕ := (Cert.ReferenceIdeal.lit0t n).toNat * 196 + (Cert.ReferenceIdeal.lit1t n).toNat

theorem srcRow_val_eq (r : Fin 784) : (srcRow r).val = srcRowN r.val := rfl

/-- An index of the block with its row replaced by the source row. -/
def rowMap (y : S1x4x784x768.Idx) : S1x4x784x768.Idx :=
  ix4 (n0 := 1) (n1 := 4) (n2 := 784) (n3 := 768) (y 0) (y 1) (srcRow (y 2)) (y 3)

/-- The block the body leaves: output row r holds input row srcRow r. -/
def gatherRows {α : Type} (x0 : S1x4x784x768.Idx → α) : S1x4x784x768.Idx → α := fun y => x0 (rowMap y)

/-- One slice copy: L rows from s0 of the input written at d0, along a stretch of the table where the source row advances
    with the destination row, is the restriction of `gatherRows` to the rows written. -/
theorem piece_ok {Val : EltTy → Type} {e : EltTy} (x0 : S1x4x784x768.Idx → Val e) (L d0 s0 : ℕ)
    (inbs : ∀ a, (![0, 0, s0, 0] : Fin 4 → ℕ) a + (![1, 4, L, 768] : Fin 4 → ℕ) a ≤ S1x4x784x768.size a)
    (inbd : ∀ a, (![0, 0, d0, 0] : Fin 4 → ℕ) a + (![1, 4, L, 768] : Fin 4 → ℕ) a ≤ S1x4x784x768.size a)
    (hrun : ∀ j : Fin L, srcRowN (d0 + j.val) = s0 + j.val)
    (w : (⟨4, ![1, 4, L, 768]⟩ : Shape).Idx) :
    View.ld x0 (Rect.unit (s := S1x4x784x768) ![0, 0, s0, 0] ![1, 4, L, 768] inbs) w
      = gatherRows x0 ((Rect.unit (s := S1x4x784x768) ![0, 0, d0, 0] ![1, 4, L, 768] inbd).emb w) := by
  unfold gatherRows
  refine congrArg x0 (funext fun a => Fin.ext ?_)
  match a with
  | ⟨0, _⟩ => rfl
  | ⟨1, _⟩ => rfl
  | ⟨2, _⟩ =>
    show s0 + 1 * (w 2).val = srcRowN (d0 + 1 * (w 2).val)
    rw [Nat.one_mul]
    exact (hrun (w 2)).symm
  | ⟨3, _⟩ => rfl

open Lean in
/-- Opens every payload of the body (each is a pair of cancelling reshapes around a loaded block). -/
macro "open_payloads" : tactic => do
  let ids : Array Ident := (Array.range 181).map fun n => mkIdent (Name.mkSimple s!"k0_pay{n + 1}")
  `(tactic| unfold $ids*)

set_option maxHeartbeats 4000000 in
/-- Every piece the body's run leaves is the restriction of `gatherRows` of the input block to its rows. -/
theorem pieces_ok (c : Dev nD) (i : grid0.Coords) (arg2 : Memref sig .tc .vmem S1x4x784x768 .f32) (harg2 : arg2.IsWhole)
    (arg3 : Memref sig .tc .vmem S1x4x784x768 .f32) (harg3 : arg3.IsWhole) (x0 : Vec F S1x4x784x768 .f32) :
    ∀ p ∈ (kernelRun0_A c i arg2 harg2 arg3 harg3 x0).1, ∀ x : p.1.shape.Idx, p.2 x = gatherRows x0 (p.1.emb x) := by
  unfold kernelRun0_A
  dsimp only
  try sl_unfold_words
  open_payloads
  simp only [shapeCast_shapeCast, View.readAt_eq_ld, harg2.read_unread]
  repeat' first
    | refine List.forall_mem_cons.2 ⟨?_, ?_⟩
    | exact fun _ h => nomatch h
    | (dsimp only; intro x; exact piece_ok x0 _ _ _ _ _ (by decide) x)

/-- The output block after the body: output row r holds input row srcRow r (the pieces cover the block). -/
theorem out_eq (c : Dev nD) (i : grid0.Coords) (arg2 : Memref sig .tc .vmem S1x4x784x768 .f32) (harg2 : arg2.IsWhole)
    (arg3 : Memref sig .tc .vmem S1x4x784x768 .f32) (harg3 : arg3.IsWhole) (x0 : Vec F S1x4x784x768 .f32) :
    out0_A_1 c i arg2 harg2 arg3 harg3 x0 = gatherRows x0 := by
  funext y
  unfold out0_A_1
  rw [View.read_writes_eq_canon _ _ _ (cover0_A_1 c i arg2 harg2 arg3 harg3 x0)]
  exact View.canon_apply_of_pieces (gatherRows x0) _ (pieces_ok c i arg2 harg2 arg3 harg3 x0) y
    (cover0_A_1 c i arg2 harg2 arg3 harg3 x0 y)

end Cert.KernelIdeal.Block

end
-- ==== Proof.KernelValue.lean ====
/-
  From the body's block to the kernel's result array.
  The kernel's program regroups the input [8, 32, 196, 768] as [8, 8, 784, 768] (batch, group of four frames, row = frame·196 +
  token, channel), runs the body once per (batch, half of the groups) on a block of four groups, and regroups the result
  back. Every block the body writes is the restriction of ONE function of the regrouped array, "row r of a group holds row
  srcRow r of the same group"; the sixteen blocks tile the array; so the region's result is that function, and the
  program's result is it between the two regroupings.
-/
import proofs.«430312_j6047313953523_3_alg».proof.Proof.KernelBlock
import Idealize.ShloMosaic.Lib.StableHlo.Run

set_option maxRecDepth 16384

noncomputable section

namespace Cert.KernelIdeal.Hand

open Cert.KernelIdeal Cert.KernelIdeal.Gen Cert.KernelIdeal.Block Cert.Tube
open Idealize.ShloMosaic Idealize.ShloMosaic.TcCoe Idealize.ShloMosaic.Tactic Idealize.ShloMosaic.ValueIdx Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The regrouped array with every group's rows selected: row r of a group holds row srcRow r of that group. -/
def gatherRowsArr {α : Type} (A : S8x8x784x768.Idx → α) : S8x8x784x768.Idx → α :=
  fun i => A (ix4 (n0 := 8) (n1 := 8) (n2 := 784) (n3 := 768) (i 0) (i 1) (srcRow (i 2)) (i 3))

/-- The two windows' index maps over the sixteen grid points: input and output blocks move together over (batch, half),
    and neither moves along rows or channels. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0 :=
  (by decide +kernel : ∀ t : Fin grid0.N, _)

/-- Every (batch, half) is some grid point's output block. -/
theorem idx_onto : ∀ (q0 : Fin 8) (q1 : Fin 2), ∃ t : Fin cfg0.N, win0_1.index t = ![q0.val, q1.val, 0, 0] :=
  (by decide +kernel : ∀ (q0 : Fin 8) (q1 : Fin 2), ∃ t : Fin grid0.N, win0_1.index t = ![q0.val, q1.val, 0, 0])

/-- What grid point t writes back is block t of the selected regrouped array. -/
theorem flushed_eq (c : Dev nD) (t : Fin cfg0.N) :
    (dats m 0 c).flushed 1 t = ((cfg0.win 1).blk t).view.read (Elt F) (gatherRowsArr (V m c main_v0)) := by
  show (cfg0.win 1).cut (grid0.coords t) ((dats m 0 c).after 1 t) = _
  rw [after0_1]
  unfold outsAt0
  rw [out_eq]
  obtain ⟨e0, e1, e2, e3, e4, e5⟩ := idx_facts t
  funext j
  show V m c main_v0 (((cfg0.win 0).blk t).view.emb (rowMap j))
    = V m c main_v0 (ix4 (n0 := 8) (n1 := 8) (n2 := 784) (n3 := 768) ((((cfg0.win 1).blk t).view.emb j) 0)
        ((((cfg0.win 1).blk t).view.emb j) 1) (srcRow ((((cfg0.win 1).blk t).view.emb j) 2)) ((((cfg0.win 1).blk t).view.emb j) 3))
  have h : ((cfg0.win 0).blk t).view.emb (rowMap j)
      = ix4 (n0 := 8) (n1 := 8) (n2 := 784) (n3 := 768) ((((cfg0.win 1).blk t).view.emb j) 0)
        ((((cfg0.win 1).blk t).view.emb j) 1) (srcRow ((((cfg0.win 1).blk t).view.emb j) 2)) ((((cfg0.win 1).blk t).view.emb j) 3) := by
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 4 + 1 * (j 1).val = win0_1.index t (1 : Fin 4) * 4 + 1 * (j 1).val; omega
    | ⟨2, _⟩ =>
      show win0_0.index t (2 : Fin 4) * 784 + 1 * srcRowN (j 2).val = srcRowN (win0_1.index t (2 : Fin 4) * 784 + 1 * (j 2).val)
      rw [e2, e4]; simp only [Nat.zero_mul, Nat.zero_add, Nat.one_mul]
    | ⟨3, _⟩ => show win0_0.index t (3 : Fin 4) * 768 + 1 * (j 3).val = win0_1.index t (3 : Fin 4) * 768 + 1 * (j 3).val; omega
  rw [h]

/-- An index of the regrouped array is in point t's block iff each coordinate is in the block's range on its axis. -/
theorem mem_blk (t : Fin cfg0.N) (i : S8x8x784x768.Idx) :
    i ∈ ((cfg0.win 1).blk t).view.set ↔ ∀ a : Fin 4, win0_1.index t a * S1x4x784x768.size a ≤ (i a).val
      ∧ (i a).val < win0_1.index t a * S1x4x784x768.size a + S1x4x784x768.size a := by
  show i ∈ ((View.whole main_v1).slice (win0_1.rect t)).set ↔ _
  rw [View.set_slice_whole, Rect.mem_set_unit]
  exact Iff.rfl

/-- The sixteen blocks cover the regrouped array: index (b, g, r, d) lies in the block of (b, g / 4). -/
theorem cover (i : S8x8x784x768.Idx) :
    ∃ t : Fin cfg0.N, (cfg0.win 1).flush t = true ∧ i ∈ ((cfg0.win 1).blk t).view.set := by
  have h0 : (i 0).val < 8 := (i 0).isLt
  have h1 : (i 1).val < 8 := (i 1).isLt
  have h2 : (i 2).val < 784 := (i 2).isLt
  have h3 : (i 3).val < 768 := (i 3).isLt
  obtain ⟨t, ht⟩ := idx_onto ⟨(i 0).val, h0⟩ ⟨(i 1).val / 4, by omega⟩
  have q0 : win0_1.index t (0 : Fin 4) = (i 0).val := congrFun ht 0
  have q1 : win0_1.index t (1 : Fin 4) = (i 1).val / 4 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 4 ≤ (i 1).val ∧ (i 1).val < win0_1.index t (1 : Fin 4) * 4 + 4; omega
  | ⟨2, _⟩ => show win0_1.index t (2 : Fin 4) * 784 ≤ (i 2).val ∧ (i 2).val < win0_1.index t (2 : Fin 4) * 784 + 784; omega
  | ⟨3, _⟩ => show win0_1.index t (3 : Fin 4) * 768 ≤ (i 3).val ∧ (i 3).val < win0_1.index t (3 : Fin 4) * 768 + 768; omega

/-- The region's result array: the selected regrouped array. -/
theorem final (c : Dev nD) : (dats m 0 c).arrAt 1 cfg0.N = gatherRowsArr (V m c main_v0) :=
  (dats m 0 c).arrAt_eq_of_cover 1 (gatherRowsArr (V m c main_v0)) (fun t _ => flushed_eq m c t) cover

/-- The region finds the argument regrouped. -/
theorem V_main_v0 (c : Dev nD) : (V m c main_v0 : S8x8x784x768.Idx → Elt F .f32)
    = shapeCast S8x8x784x768 (m ((c : Thread nD τ).loc main_arg0)) shapeCasts_S8x32x196x768_S8x8x784x768 := by
  show StableHlo.after hostOps0 (fun b => m (c, b)) (Proc.devRef .tc main_v0) = _
  after_results
  rfl

/-- The kernel program's result as one term of its argument. -/
def kerVal (x : FVec F S8x32x196x768 .f32) : FVec F S8x32x196x768 .f32 :=
  shapeCast S8x32x196x768 (gatherRowsArr (shapeCast S8x8x784x768 x shapeCasts_S8x32x196x768_S8x8x784x768))
    shapeCasts_S8x8x784x768_S8x32x196x768

/-- The result buffer after the line that follows the region. -/
theorem tail_eq (c : Dev nD) :
    Pipeline.afterTail₀ cfgs (dats m) 0 (V0 m) [hostOps1] c main_v2 = kerVal (m ((c : Thread nD τ).loc main_arg0)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = gatherRowsArr (shapeCast S8x8x784x768 (m ((c : Thread nD τ).loc main_arg0)) shapeCasts_S8x32x196x768_S8x8x784x768) :=
    ((Pipeline.withArrays_arr spec0 launch0.win.arr_inj c _ _ 1).trans (final m c)).trans
      (congrArg gatherRowsArr (V_main_v0 m c))
  rw [hA]
  rfl

/-- The kernel's run, read: every weakly fair execution terminates with the result buffer at the kernel's term of the
    argument's launch contents, the argument unchanged. -/
theorem run : θ_run defs (onTc (τ := τ) (main (F := F))) ⟨m, fun _ => 0, ρ⟩ fun r => ∀ c : Dev nD,
      r.2.mem ((c.tc : Thread nD τ).loc main_v2) = kerVal (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.KernelIdeal.Hand

end
-- ==== Proof.Spec.lean ====
/-
  What the tube selection computes, as ONE function of the input array x : [8, 32, 196, 768] (batch, frame, token, channel).
  The 32 frames fall into 8 groups of 4. Result frame `t = 4g + s` is the tube of spatial start `s` in group `g`; its token
  `k` is a copy of token `token r` of frame `4g + frameOff r`, where `r = s·196 + k` is the row of the index table.
  Nothing is computed on the values: every result element is one input element.
-/
import proofs.«430312_j6047313953523_3_alg».proof.Proof.Table
import Idealize.ShloMosaic.Lib.ValueIdx

namespace Cert.Tube

open Idealize.ShloMosaic Idealize.ShloMosaic.ValueIdx

/-- The index table's row for result frame `t` (its place in the group is `t mod 4`) and token place `k`. -/
def dstRow (t : Fin 32) (k : Fin 196) : Fin 784 :=
  ⟨t.val % 4 * 196 + k.val, by have := t.isLt; have := k.isLt; omega⟩

theorem dstRow_val (t : Fin 32) (k : Fin 196) : (dstRow t k).val = t.val % 4 * 196 + k.val := rfl

/-- The input frame that result frame `t`, token place `k` copies from: the group's first frame plus the table's offset. -/
def srcFrame (t : Fin 32) (k : Fin 196) : Fin 32 :=
  ⟨4 * (t.val / 4) + frameOff (dstRow t k), by have := t.isLt; have := frameOff_lt (dstRow t k); omega⟩

/-- The input token it copies. -/
def srcToken (t : Fin 32) (k : Fin 196) : Fin 196 := ⟨token (dstRow t k), token_lt _⟩

theorem srcFrame_val (t : Fin 32) (k : Fin 196) : (srcFrame t k).val = 4 * (t.val / 4) + frameOff (dstRow t k) := rfl
theorem srcToken_val (t : Fin 32) (k : Fin 196) : (srcToken t k).val = token (dstRow t k) := rfl

/-- The selection at explicit coordinates. -/
def tubeAt {α : Type} (x : (⟨4, ![8, 32, 196, 768]⟩ : Shape).Idx → α) (b : Fin 8) (t : Fin 32) (k : Fin 196) (d : Fin 768) : α :=
  x (ix4 b (srcFrame t k) (srcToken t k) d)

/-- The selection as a whole array. -/
def tube {α : Type} (x : (⟨4, ![8, 32, 196, 768]⟩ : Shape).Idx → α) : (⟨4, ![8, 32, 196, 768]⟩ : Shape).Idx → α :=
  fun i => tubeAt x (i 0) (i 1) (i 2) (i 3)

theorem tube_apply {α : Type} (x : (⟨4, ![8, 32, 196, 768]⟩ : Shape).Idx → α) (b : Fin 8) (t : Fin 32) (k : Fin 196) (d : Fin 768) :
    tube x (ix4 b t k d) = tubeAt x b t k d := rfl

end Cert.Tube
-- ==== Proof.KernelBridge.lean ====
/-
  The kernel program's result is the tube selection.
  Read at (b, t, k, d): the regrouping back puts frame t, token place k at group t / 4, row (t mod 4)·196 + k — the index
  table's row; the body's selection sends that row to srcRow = frameOff·196 + token of the same group; and the first
  regrouping reads group g, row r of the input at frame 4g + r / 196, token r mod 196. Since the token is below 196, the
  quotient and remainder of srcRow by 196 are the frame offset and the token, which is what the selection names.
-/
import proofs.«430312_j6047313953523_3_alg».proof.Proof.KernelValue
import proofs.«430312_j6047313953523_3_alg».proof.Proof.Spec

noncomputable section

namespace Cert.KernelIdeal.Hand

open Cert.KernelIdeal Cert.KernelIdeal.Gen Cert.KernelIdeal.Block Cert.Tube
open Idealize.ShloMosaic Idealize.ShloMosaic.ValueIdx

variable {F : FTy → Type} [FloatOps F]

/-- The kernel's term at explicit coordinates is the selection there. -/
theorem kerVal_apply (x : FVec F S8x32x196x768 .f32) (b : Fin 8) (t : Fin 32) (k : Fin 196) (d : Fin 768) :
    kerVal x (ix4 b t k d) = tubeAt x b t k d := by
  have hb := b.isLt; have ht := t.isLt; have hk := k.isLt; have hd := d.isLt
  have hfo := frameOff_lt (dstRow t k); have htk := token_lt (dstRow t k)
  unfold kerVal
  rw [shapeCast_apply _ _ (ix4 b t k d) (ix4 b (⟨t.val / 4, by omega⟩ : Fin 8) (dstRow t k) d) (by
    rw [Shape.rowMajor_val_four, Shape.rowMajor_val_four]
    show ((b.val * 8 + t.val / 4) * 784 + (dstRow t k).val) * 768 + d.val = ((b.val * 32 + t.val) * 196 + k.val) * 768 + d.val
    rw [dstRow_val]; omega)]
  unfold gatherRowsArr
  show shapeCast S8x8x784x768 x shapeCasts_S8x32x196x768_S8x8x784x768
      (ix4 b (⟨t.val / 4, by omega⟩ : Fin 8) (srcRow (dstRow t k)) d) = _
  rw [shapeCast_apply _ _ _ (ix4 b (srcFrame t k) (srcToken t k) d) (by
    rw [Shape.rowMajor_val_four, Shape.rowMajor_val_four]
    show ((b.val * 32 + (srcFrame t k).val) * 196 + (srcToken t k).val) * 768 + d.val
      = ((b.val * 8 + t.val / 4) * 784 + (srcRow (dstRow t k)).val) * 768 + d.val
    rw [srcFrame_val, srcToken_val, srcRow_val]; omega)]
  rfl

/-- The kernel's term is the selection. -/
theorem kerVal_eq_tube (x : FVec F S8x32x196x768 .f32) : kerVal x = tube x := by
  funext i
  obtain ⟨b, t, k, d, rfl⟩ : ∃ (b : Fin 8) (t : Fin 32) (k : Fin 196) (d : Fin 768), i = ix4 b t k d :=
    ⟨i 0, i 1, i 2, i 3, eq_ix4 i⟩
  exact kerVal_apply x b t k d

end Cert.KernelIdeal.Hand

end
-- ==== Proof.RefOps.lean ====
import proofs.«430312_j6047313953523_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's 32 operations, in order. -/
abbrev ops : List (HloOp τ sig (Elt F)) :=
  [ StableHlo.nullary main_c (fun i => lit0 (S4x196.rowMajor i)),
    StableHlo.nullary main_c_0 (fun i => lit1 (S4x196.rowMajor i)),
    StableHlo.nullary main_v0 (iotaInDim S8 32 0),
    StableHlo.unary main_v0 main_v1 (broadcastInDim S8x1x1 ![0] bcast_S8_S8x1x1_0 : (⟨S8, .i32⟩ : BufTy).Contents (Elt F) → (⟨S8x1x1, .i32⟩ : BufTy).Contents (Elt F)),
    StableHlo.nullary main_c_1 (constantI S_ 32 4#32),
    StableHlo.unary main_c_1 main_v2 (broadcastInDim S8x1x1 ![] bcast_S_S8x1x1 : (⟨S_, .i32⟩ : BufTy).Contents (Elt F) → (⟨S8x1x1, .i32⟩ : BufTy).Contents (Elt F)),
    StableHlo.binary main_v2 main_v1 main_v3 (muli : (⟨S8x1x1, .i32⟩ : BufTy).Contents (Elt F) → (⟨S8x1x1, .i32⟩ : BufTy).Contents (Elt F) → (⟨S8x1x1, .i32⟩ : BufTy).Contents (Elt F)),
    StableHlo.unary main_c main_v4 (broadcastInDim S1x4x196 ![1, 2] bcast_S4x196_S1x4x196_1_2 : (⟨S4x196, .i32⟩ : BufTy).Contents (Elt F) → (⟨S1x4x196, .i32⟩ : BufTy).Contents (Elt F)),
    StableHlo.unary main_v3 main_v5 (broadcastInDim S8x4x196 ![0, 1, 2] bcast_S8x1x1_S8x4x196_0_1_2 : (⟨S8x1x1, .i32⟩ : BufTy).Contents (Elt F) → (⟨S8x4x196, .i32⟩ : BufTy).Contents (Elt F)),
    StableHlo.unary main_v4 main_v6 (broadcastInDim S8x4x196 ![0, 1, 2] bcast_S1x4x196_S8x4x196_0_1_2 : (⟨S1x4x196, .i32⟩ : BufTy).Contents (Elt F) → (⟨S8x4x196, .i32⟩ : BufTy).Contents (Elt F)),
    StableHlo.binary main_v5 main_v6 main_v7 (addi : (⟨S8x4x196, .i32⟩ : BufTy).Contents (Elt F) → (⟨S8x4x196, .i32⟩ : BufTy).Contents (Elt F) → (⟨S8x4x196, .i32⟩ : BufTy).Contents (Elt F)),
    StableHlo.unary main_c_0 main_v8 (broadcastInDim S1x4x196 ![1, 2] bcast_S4x196_S1x4x196_1_2 : (⟨S4x196, .i32⟩ : BufTy).Contents (Elt F) → (⟨S1x4x196, .i32⟩ : BufTy).Contents (Elt F)),
    StableHlo.unary main_v8 main_v9 (broadcastInDim S8x4x196 ![0, 1, 2] bcast_S1x4x196_S8x4x196_0_1_2 : (⟨S1x4x196, .i32⟩ : BufTy).Contents (Elt F) → (⟨S8x4x196, .i32⟩ : BufTy).Contents (Elt F)),
    StableHlo.nullary main_c_2 (constantI S_ 32 0#32),
    StableHlo.unary main_c_2 main_v10 (broadcastInDim S8x4x196 ![] bcast_S_S8x4x196 : (⟨S_, .i32⟩ : BufTy).Contents (Elt F) → (⟨S8x4x196, .i32⟩ : BufTy).Contents (Elt F)),
    StableHlo.binary main_v7 main_v10 main_v11 (cmpi .slt : (⟨S8x4x196, .i32⟩ : BufTy).Contents (Elt F) → (⟨S8x4x196, .i32⟩ : BufTy).Contents (Elt F) → (⟨S8x4x196, .i1⟩ : BufTy).Contents (Elt F)),
    StableHlo.nullary main_c_3 (constantI S_ 32 32#32),
    StableHlo.unary main_c_3 main_v12 (broadcastInDim S8x4x196 ![] bcast_S_S8x4x196 : (⟨S_, .i32⟩ : BufTy).Contents (Elt F) → (⟨S8x4x196, .i32⟩ : BufTy).Contents (Elt F)),
    StableHlo.binary main_v7 main_v12 main_v13 (addi : (⟨S8x4x196, .i32⟩ : BufTy).Contents (Elt F) → (⟨S8x4x196, .i32⟩ : BufTy).Contents (Elt F) → (⟨S8x4x196, .i32⟩ : BufTy).Contents (Elt F)),
    StableHlo.ternary main_v11 main_v13 main_v7 main_v14 (select : (⟨S8x4x196, .i1⟩ : BufTy).Contents (Elt F) → (⟨S8x4x196, .i32⟩ : BufTy).Contents (Elt F) → (⟨S8x4x196, .i32⟩ : BufTy).Contents (Elt F) → (⟨S8x4x196, .i32⟩ : BufTy).Contents (Elt F)),
    StableHlo.nullary main_c_4 (constantI S_ 32 0#32),
    StableHlo.unary main_c_4 main_v15 (broadcastInDim S8x4x196 ![] bcast_S_S8x4x196 : (⟨S_, .i32⟩ : BufTy).Contents (Elt F) → (⟨S8x4x196, .i32⟩ : BufTy).Contents (Elt F)),
    StableHlo.binary main_v9 main_v15 main_v16 (cmpi .slt : (⟨S8x4x196, .i32⟩ : BufTy).Contents (Elt F) → (⟨S8x4x196, .i32⟩ : BufTy).Contents (Elt F) → (⟨S8x4x196, .i1⟩ : BufTy).Contents (Elt F)),
    StableHlo.nullary main_c_5 (constantI S_ 32 196#32),
    StableHlo.unary main_c_5 main_v17 (broadcastInDim S8x4x196 ![] bcast_S_S8x4x196 : (⟨S_, .i32⟩ : BufTy).Contents (Elt F) → (⟨S8x4x196, .i32⟩ : BufTy).Contents (Elt F)),
    StableHlo.binary main_v9 main_v17 main_v18 (addi : (⟨S8x4x196, .i32⟩ : BufTy).Contents (Elt F) → (⟨S8x4x196, .i32⟩ : BufTy).Contents (Elt F) → (⟨S8x4x196, .i32⟩ : BufTy).Contents (Elt F)),
    StableHlo.ternary main_v16 main_v18 main_v9 main_v19 (select : (⟨S8x4x196, .i1⟩ : BufTy).Contents (Elt F) → (⟨S8x4x196, .i32⟩ : BufTy).Contents (Elt F) → (⟨S8x4x196, .i32⟩ : BufTy).Contents (Elt F) → (⟨S8x4x196, .i32⟩ : BufTy).Contents (Elt F)),
    StableHlo.unary main_v14 main_v20 (broadcastInDim S8x4x196x1 ![0, 1, 2] bcast_S8x4x196_S8x4x196x1_0_1_2 : (⟨S8x4x196, .i32⟩ : BufTy).Contents (Elt F) → (⟨S8x4x196x1, .i32⟩ : BufTy).Contents (Elt F)),
    StableHlo.unary main_v19 main_v21 (broadcastInDim S8x4x196x1 ![0, 1, 2] bcast_S8x4x196_S8x4x196x1_0_1_2 : (⟨S8x4x196, .i32⟩ : BufTy).Contents (Elt F) → (⟨S8x4x196x1, .i32⟩ : BufTy).Contents (Elt F)),
    StableHlo.binary main_v20 main_v21 main_v22 ((fun a b => concatenate S8x4x196x2 3 [⟨S8x4x196x1, a⟩, ⟨S8x4x196x1, b⟩] concatenates_S8x4x196x1_S8x4x196x1_S8x4x196x2_d3) : (⟨S8x4x196x1, .i32⟩ : BufTy).Contents (Elt F) → (⟨S8x4x196x1, .i32⟩ : BufTy).Contents (Elt F) → (⟨S8x4x196x2, .i32⟩ : BufTy).Contents (Elt F)),
    StableHlo.binary main_arg0 main_v22 main_v23 ((fun x i => Host.gather gather_S8x32x196x768_S8x4x196x2_S8x8x4x196x768_04_12_n_n_12_3_811768 x i) : (⟨S8x32x196x768, .f32⟩ : BufTy).Contents (Elt F) → (⟨S8x4x196x2, .i32⟩ : BufTy).Contents (Elt F) → (⟨S8x8x4x196x768, .f32⟩ : BufTy).Contents (Elt F)),
    StableHlo.reshape main_v23 main_v24 rfl shapeCasts_S8x8x4x196x768_S8x32x196x768 ]

end Cert.ReferenceIdeal.Ops

end
-- ==== Proof.RefTerm.lean ====
/-
  The reference's result as ONE pure term of its argument, stage by stage as the program computes it: the frame index
  array (4 × the group's number + the table's frame offset, negative values wrapped by 32), the token index array (the
  table's tokens, negative values wrapped by 196), the two laid side by side as start indices [8, 4, 196, 2], the gather
  of whole channel rows of the argument at those starts, and the result's groups and starts merged into frames.
-/
import proofs.«430312_j6047313953523_3_alg».proof.Proof.Gen.ReferenceIdeal

noncomputable section

namespace Cert.ReferenceIdeal.Term

open Cert.ReferenceIdeal Cert.ReferenceIdeal.Gen Idealize.ShloMosaic

variable {F : FTy → Type} [FloatOps F]

/-- The two literal tables as [4, 196] integer arrays. -/
def offTable : IVec S4x196 32 := fun i => lit0 (S4x196.rowMajor i)
def tokTable : IVec S4x196 32 := fun i => lit1 (S4x196.rowMajor i)

/-- 4 × (group number) + frame offset, before the wrap of negatives. -/
def frames0 : IVec S8x4x196 32 :=
  addi
    (broadcastInDim S8x4x196 ![0, 1, 2] bcast_S8x1x1_S8x4x196_0_1_2
      (muli (broadcastInDim S8x1x1 ![] bcast_S_S8x1x1 (constantI S_ 32 4#32))
        (broadcastInDim S8x1x1 ![0] bcast_S8_S8x1x1_0 (iotaInDim S8 32 0))))
    (broadcastInDim S8x4x196 ![0, 1, 2] bcast_S1x4x196_S8x4x196_0_1_2
      (broadcastInDim S1x4x196 ![1, 2] bcast_S4x196_S1x4x196_1_2 offTable))

/-- The tokens, the same for every group, before the wrap of negatives. -/
def tokens0 : IVec S8x4x196 32 :=
  broadcastInDim S8x4x196 ![0, 1, 2] bcast_S1x4x196_S8x4x196_0_1_2
    (broadcastInDim S1x4x196 ![1, 2] bcast_S4x196_S1x4x196_1_2 tokTable)

/-- A negative frame index counts from the end: + 32. -/
def frames : IVec S8x4x196 32 :=
  select (cmpi .slt frames0 (broadcastInDim S8x4x196 ![] bcast_S_S8x4x196 (constantI S_ 32 0#32)))
    (addi frames0 (broadcastInDim S8x4x196 ![] bcast_S_S8x4x196 (constantI S_ 32 32#32))) frames0

/-- A negative token index counts from the end: + 196. -/
def tokens : IVec S8x4x196 32 :=
  select (cmpi .slt tokens0 (broadcastInDim S8x4x196 ![] bcast_S_S8x4x196 (constantI S_ 32 0#32)))
    (addi tokens0 (broadcastInDim S8x4x196 ![] bcast_S_S8x4x196 (constantI S_ 32 196#32))) tokens0

/-- The start indices: (frame, token) along a last axis of extent 2. -/
def starts : IVec S8x4x196x2 32 :=
  concatenate S8x4x196x2 3
    [⟨S8x4x196x1, broadcastInDim S8x4x196x1 ![0, 1, 2] bcast_S8x4x196_S8x4x196x1_0_1_2 frames⟩,
     ⟨S8x4x196x1, broadcastInDim S8x4x196x1 ![0, 1, 2] bcast_S8x4x196_S8x4x196x1_0_1_2 tokens⟩]
    concatenates_S8x4x196x1_S8x4x196x1_S8x4x196x2_d3

/-- The gathered rows, [batch, group, start, token place, channel]. -/
def gathered (x : FVec F S8x32x196x768 .f32) : FVec F S8x8x4x196x768 .f32 :=
  Host.gather gather_S8x32x196x768_S8x4x196x2_S8x8x4x196x768_04_12_n_n_12_3_811768 x starts

/-- The reference's result. -/
def refVal (x : FVec F S8x32x196x768 .f32) : FVec F S8x32x196x768 .f32 :=
  shapeCast S8x32x196x768 (gathered x) shapeCasts_S8x8x4x196x768_S8x32x196x768

end Cert.ReferenceIdeal.Term

end
-- ==== Proof.RefRun.lean ====
/-
  The reference's run, read back. Its @main is the straight line of its host operations, so every weakly fair execution
  terminates with each buffer at the fold of those operations over the launch contents; unfolding the fold at the result
  buffer gives the stages of the pure term (the index arrays, the gather, the merge of groups and starts into frames)
  applied to the argument, and the argument itself is written by no operation.
-/
import proofs.«430312_j6047313953523_3_alg».proof.Proof.RefOps
import proofs.«430312_j6047313953523_3_alg».proof.Proof.RefTerm

noncomputable section

namespace Cert.ReferenceIdeal.Hand

open Cert.ReferenceIdeal Cert.ReferenceIdeal.Gen Cert.ReferenceIdeal.Ops Cert.ReferenceIdeal.Term
open Idealize.ShloMosaic Idealize.ShloMosaic.TcCoe Idealize.SL.Sem Idealize.ShloMosaic.StableHlo

variable {F : FTy → Type} [FloatOps F]

/-- @main is its operations in sequence. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
/-- On every device, from any memory with zero counters: every weakly fair execution of @main terminates with the result
    buffer at the pure term of the argument's launch contents, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refVal (m ((c.tc : Thread nD τ).loc main_arg0))
      ∧ r.2.mem ((c.tc : Thread nD τ).loc main_arg0) = m ((c.tc : Thread nD τ).loc main_arg0) :=
  (θ_run defs _ _).mono (fun _ h c => ⟨(h c main_v24).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference's pure result term is the tube selection, index by index.

  The reference builds, for every group `g` of four frames, start `s` and token place `k`, a pair of start indices
  (frame, token) and gathers whole channel rows of its argument at them. Read at explicit coordinates:
    * the frame index is the word 4·g + (the table's frame offset at row s·196 + k); the offset is below 4, so the word's
      value is 4·g + offset, below 32: it is not negative, the wrap "+ 32 when negative" leaves it, and read as a signed
      integer it is that natural number; the token index is the table's token at the same row, below 196, likewise;
    * the two are laid side by side along a last axis of extent 2: column 0 the frame, column 1 the token;
    * the gather's operand index for result index (b, g, s, k, d) is, axis by axis: the batch coordinate b and the channel
      d on the two offset axes, and on the two collapsed axes the start's components, clamped into 0…31 and 0…195 — a
      clamp that does nothing on values already in range;
    * the final reshape merges (group, start) into one frame axis: frame t is start t mod 4 of group t div 4, because
      both indices have the same row-major position.
  Put together, result element (b, t, k, d) is the argument at (b, 4·(t div 4) + offset, token, d) with the table read at
  row (t mod 4)·196 + k: the specification's `tubeAt`.
-/
import proofs.«430312_j6047313953523_3_alg».proof.Proof.RefTerm
import proofs.«430312_j6047313953523_3_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Term Cert.Tube Idealize.ShloMosaic Idealize.ShloMosaic.ValueIdx

variable {F : FTy → Type} [FloatOps F]

/-- The row of the index table under start `s` and token place `k`. -/
def row (s : Fin 4) (k : Fin 196) : Fin 784 := ⟨s.val * 196 + k.val, by have := s.isLt; have := k.isLt; omega⟩

/-- Its row-major position in the [4, 196] table. -/
theorem rowMajor_ix2 (s : Fin 4) (k : Fin 196) : S4x196.rowMajor (ix2 s k) = row s k := by
  refine Fin.ext ?_
  rw [Shape.rowMajor_val_two]
  rfl

/-- The two tables at coordinates: the literal words at that row. -/
theorem offTable_apply (s : Fin 4) (k : Fin 196) : offTable (ix2 s k) = lit0 (row s k) := by
  unfold offTable; rw [rowMajor_ix2]

theorem tokTable_apply (s : Fin 4) (k : Fin 196) : tokTable (ix2 s k) = lit1 (row s k) := by
  unfold tokTable; rw [rowMajor_ix2]

/-- The frame index before the wrap: 4 × the group's number plus the table's offset word. -/
theorem frames0_apply (g : Fin 8) (s : Fin 4) (k : Fin 196) :
    frames0 (ix3 g s k) = 4#32 * BitVec.ofNat 32 g.val + lit0 (row s k) := by
  unfold frames0
  show IntOp.addi _ _ = _
  rw [broadcastInDim_apply _ _ _ (ix3 g s k) (ix3 g 0 0) (by intro a; match a with | ⟨0, _⟩ => rfl | ⟨1, _⟩ => rfl | ⟨2, _⟩ => rfl)]
  rw [broadcastInDim_apply _ _ _ (ix3 g s k) (ix3 0 s k) (by intro a; match a with | ⟨0, _⟩ => rfl | ⟨1, _⟩ => rfl | ⟨2, _⟩ => rfl)]
  rw [broadcastInDim_apply _ _ _ (ix3 (0 : Fin 1) s k) (ix2 s k) (by intro a; match a with | ⟨0, _⟩ => rfl | ⟨1, _⟩ => rfl)]
  rw [offTable_apply]
  show IntOp.addi (IntOp.muli _ _) _ = _
  rw [broadcastInDim_apply _ _ _ (ix3 g (0 : Fin 1) (0 : Fin 1)) ix0 (by intro a; exact a.elim0)]
  rw [broadcastInDim_apply _ _ _ (ix3 g (0 : Fin 1) (0 : Fin 1)) (ix1 g) (by intro a; match a with | ⟨0, _⟩ => rfl)]
  rfl

/-- The token index before the wrap: the table's token word, whatever the group. -/
theorem tokens0_apply (g : Fin 8) (s : Fin 4) (k : Fin 196) : tokens0 (ix3 g s k) = lit1 (row s k) := by
  unfold tokens0
  rw [broadcastInDim_apply _ _ _ (ix3 g s k) (ix3 0 s k) (by intro a; match a with | ⟨0, _⟩ => rfl | ⟨1, _⟩ => rfl | ⟨2, _⟩ => rfl)]
  rw [broadcastInDim_apply _ _ _ (ix3 (0 : Fin 1) s k) (ix2 s k) (by intro a; match a with | ⟨0, _⟩ => rfl | ⟨1, _⟩ => rfl)]
  exact tokTable_apply s k

/-! ## The wrap of negatives does nothing -/

/-- A word whose unsigned value is below 2³¹ is not signed-less-than zero. -/
theorem cmpi_slt_zero_of_lt (v : BitVec 32) (hv : v.toNat < 2 ^ 31) : IntOp.cmpi .slt v 0#32 = 0#1 := by
  have h : v.slt 0#32 = false := by
    rw [BitVec.slt_eq_decide, BitVec.toInt_eq_toNat_of_lt (by omega)]
    simp
  show BitVec.ofBool (v.slt 0#32) = 0#1
  rw [h]; rfl

/-- Such a word read signed is its unsigned value. -/
theorem toInt_toNat_of_lt (v : BitVec 32) (hv : v.toNat < 2 ^ 31) : v.toInt.toNat = v.toNat := by
  rw [BitVec.toInt_eq_toNat_of_lt (by omega)]; rfl

/-- A select between the wrapped and the unwrapped word on "the word is negative" keeps a small word. -/
theorem wrap_of_lt (v c : BitVec 32) (hv : v.toNat < 2 ^ 31) :
    Scalar.select (IntOp.cmpi .slt v 0#32) (IntOp.addi v c) v = v := by
  rw [cmpi_slt_zero_of_lt v hv, select_zero]

/-- The unsigned value of 4 × group number + a table word below 4. -/
theorem frameWord_toNat (g : Fin 8) (w : BitVec 32) (hw : w.toNat < 4) :
    (4#32 * BitVec.ofNat 32 g.val + w).toNat = 4 * g.val + w.toNat := by
  have := g.isLt
  rw [BitVec.toNat_add, BitVec.toNat_mul, BitVec.toNat_ofNat]
  show (4 * (g.val % 2 ^ 32) % 2 ^ 32 + w.toNat) % 2 ^ 32 = _
  omega

/-- The frame index is below 32, hence not negative: the wrap leaves it. -/
theorem frames_apply (g : Fin 8) (s : Fin 4) (k : Fin 196) : frames (ix3 g s k) = frames0 (ix3 g s k) := by
  unfold frames
  rw [select_apply]
  show Scalar.select (IntOp.cmpi .slt (frames0 (ix3 g s k)) 0#32) (IntOp.addi (frames0 (ix3 g s k)) 32#32) _ = _
  refine wrap_of_lt _ _ ?_
  rw [frames0_apply, frameWord_toNat g _ (frameOff_lt (row s k))]
  have := g.isLt; have := frameOff_lt (row s k)
  unfold frameOff at this
  omega

/-- The token index is below 196, hence not negative: the wrap leaves it. -/
theorem tokens_apply (g : Fin 8) (s : Fin 4) (k : Fin 196) : tokens (ix3 g s k) = tokens0 (ix3 g s k) := by
  unfold tokens
  rw [select_apply]
  show Scalar.select (IntOp.cmpi .slt (tokens0 (ix3 g s k)) 0#32) (IntOp.addi (tokens0 (ix3 g s k)) 196#32) _ = _
  refine wrap_of_lt _ _ ?_
  rw [tokens0_apply]
  have := token_lt (row s k)
  unfold token at this
  omega

/-- The frame index read signed: the group's first frame plus the table's offset. -/
theorem frames_toNat (g : Fin 8) (s : Fin 4) (k : Fin 196) :
    (frames (ix3 g s k)).toInt.toNat = 4 * g.val + frameOff (row s k) := by
  have := g.isLt; have h := frameOff_lt (row s k)
  rw [frames_apply, frames0_apply, toInt_toNat_of_lt _ (by rw [frameWord_toNat g _ h]; unfold frameOff at h; omega),
    frameWord_toNat g _ h]
  rfl

/-- The token index read signed: the table's token. -/
theorem tokens_toNat (g : Fin 8) (s : Fin 4) (k : Fin 196) :
    (tokens (ix3 g s k)).toInt.toNat = token (row s k) := by
  have h := token_lt (row s k)
  rw [tokens_apply, tokens0_apply, toInt_toNat_of_lt _ (by unfold token at h; omega)]
  rfl

/-! ## The start indices -/

/-- Column 0 of the start indices is the frame index … -/
theorem starts_zero (g : Fin 8) (s : Fin 4) (k : Fin 196) : starts (ix4 g s k (0 : Fin 2)) = frames (ix3 g s k) := by
  unfold starts
  rw [concatenate_pair_apply_left (s₁ := S8x4x196x1) (s₂ := S8x4x196x1) _ _ _ _ (ix4 g s k (0 : Fin 2)) rfl (ix4 g s k (0 : Fin 1))
    (by intro b; match b with | ⟨0, _⟩ => rfl | ⟨1, _⟩ => rfl | ⟨2, _⟩ => rfl | ⟨3, _⟩ => rfl)]
  exact broadcastInDim_apply _ _ _ (ix4 g s k (0 : Fin 1)) (ix3 g s k)
    (by intro a; match a with | ⟨0, _⟩ => rfl | ⟨1, _⟩ => rfl | ⟨2, _⟩ => rfl)

/-- … and column 1 the token index. -/
theorem starts_one (g : Fin 8) (s : Fin 4) (k : Fin 196) : starts (ix4 g s k (1 : Fin 2)) = tokens (ix3 g s k) := by
  unfold starts
  rw [concatenate_pair_apply_right (s₁ := S8x4x196x1) (s₂ := S8x4x196x1) _ _ _ _ (ix4 g s k (1 : Fin 2)) rfl rfl (ix4 g s k (0 : Fin 1))
    (by intro b hb; match b, hb with
      | ⟨0, _⟩, _ => rfl | ⟨1, _⟩, _ => rfl | ⟨2, _⟩, _ => rfl | ⟨3, _⟩, hb => exact absurd rfl hb)
    rfl]
  exact broadcastInDim_apply _ _ _ (ix4 g s k (0 : Fin 1)) (ix3 g s k)
    (by intro a; match a with | ⟨0, _⟩ => rfl | ⟨1, _⟩ => rfl | ⟨2, _⟩ => rfl)

/-! ## The gather read at an index -/

/-- The gather's dimension numbers, under a short name. -/
abbrev GD : GatherDims S8x32x196x768 S8x4x196x2 S8x8x4x196x768 :=
  gather_S8x32x196x768_S8x4x196x2_S8x8x4x196x768_04_12_n_n_12_3_811768

/-- The start-indices index at which result index `(b, g, s, k, d)` reads component `c` of its start: `(g, s, k, c)`. -/
theorem siIdx_eq (b : Fin 8) (g : Fin 8) (s : Fin 4) (k : Fin 196) (d : Fin 768) (c : Fin 2) :
    GD.siIdx (ix5 b g s k d) c = ix4 g s k c := by
  funext a
  refine Fin.ext ?_
  match a with
  | ⟨0, _⟩ => rfl
  | ⟨1, _⟩ => rfl
  | ⟨2, _⟩ => rfl
  | ⟨3, _⟩ => rfl

/-- Operand axis 0 (batch) is an offset axis: the result's batch coordinate. -/
theorem operandIdx_zero (b : Fin 8) (g : Fin 8) (s : Fin 4) (k : Fin 196) (d : Fin 768) :
    (GD.operandIdx (ix5 b g s k d) starts ⟨0, by decide⟩).val = b.val := by
  show GD.start (ix5 b g s k d) starts ⟨0, _⟩ + GD.batchCoord (ix5 b g s k d) ⟨0, _⟩ + GD.offCoord (ix5 b g s k d) ⟨0, _⟩ = b.val
  rw [GatherDims.batchCoord_eq_zero _ _ _ List.not_mem_nil]
  unfold GatherDims.start GatherDims.offCoord
  rw [dif_neg (by decide), dif_pos (by decide), Nat.zero_add]
  rfl

/-- Operand axis 3 (channel) is an offset axis: the result's channel coordinate. -/
theorem operandIdx_three (b : Fin 8) (g : Fin 8) (s : Fin 4) (k : Fin 196) (d : Fin 768) :
    (GD.operandIdx (ix5 b g s k d) starts ⟨3, by decide⟩).val = d.val := by
  show GD.start (ix5 b g s k d) starts ⟨3, _⟩ + GD.batchCoord (ix5 b g s k d) ⟨3, _⟩ + GD.offCoord (ix5 b g s k d) ⟨3, _⟩ = d.val
  rw [GatherDims.batchCoord_eq_zero _ _ _ List.not_mem_nil]
  unfold GatherDims.start GatherDims.offCoord
  rw [dif_neg (by decide), dif_pos (by decide), Nat.zero_add]
  rfl

/-- Operand axis 1 (frame) is collapsed and indexed by the start's component 0, clamped to the 32 frames. -/
theorem operandIdx_one (b : Fin 8) (g : Fin 8) (s : Fin 4) (k : Fin 196) (d : Fin 768) :
    (GD.operandIdx (ix5 b g s k d) starts ⟨1, by decide⟩).val = min (starts (ix4 g s k (0 : Fin 2))).toInt.toNat 31 := by
  show GD.start (ix5 b g s k d) starts ⟨1, _⟩ + GD.batchCoord (ix5 b g s k d) ⟨1, _⟩ + GD.offCoord (ix5 b g s k d) ⟨1, _⟩ = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (by decide)]
  rw [← siIdx_eq b g s k d (0 : Fin 2)]
  rfl

/-- Operand axis 2 (token) is collapsed and indexed by the start's component 1, clamped to the 196 tokens. -/
theorem operandIdx_two (b : Fin 8) (g : Fin 8) (s : Fin 4) (k : Fin 196) (d : Fin 768) :
    (GD.operandIdx (ix5 b g s k d) starts ⟨2, by decide⟩).val = min (starts (ix4 g s k (1 : Fin 2))).toInt.toNat 195 := by
  show GD.start (ix5 b g s k d) starts ⟨2, _⟩ + GD.batchCoord (ix5 b g s k d) ⟨2, _⟩ + GD.offCoord (ix5 b g s k d) ⟨2, _⟩ = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (by decide)]
  rw [← siIdx_eq b g s k d (1 : Fin 2)]
  rfl

/-- THE GATHER READ AT `(b, g, s, k, d)`: the argument at batch `b`, channel `d`, and the frame and token the start
    indices `(g, s, k, ·)` name, each read signed and clamped into its axis. -/
theorem gathered_apply (x : FVec F S8x32x196x768 .f32) (b : Fin 8) (g : Fin 8) (s : Fin 4) (k : Fin 196) (d : Fin 768) :
    gathered x (ix5 b g s k d)
      = x (ix4 b ⟨min (starts (ix4 g s k (0 : Fin 2))).toInt.toNat 31, by omega⟩
            ⟨min (starts (ix4 g s k (1 : Fin 2))).toInt.toNat 195, by omega⟩ d) := by
  unfold gathered Host.gather
  refine congrArg x ?_
  funext a
  refine Fin.ext ?_
  match a with
  | ⟨0, _⟩ => exact operandIdx_zero b g s k d
  | ⟨1, _⟩ => exact operandIdx_one b g s k d
  | ⟨2, _⟩ => exact operandIdx_two b g s k d
  | ⟨3, _⟩ => exact operandIdx_three b g s k d

/-! ## Groups and starts merged into frames -/

/-- Result frame `t` is start `t mod 4` of group `t div 4`. -/
theorem refVal_gathered (x : FVec F S8x32x196x768 .f32) (b : Fin 8) (t : Fin 32) (k : Fin 196) (d : Fin 768) :
    refVal x (ix4 b t k d)
      = gathered x (ix5 b (⟨t.val / 4, by have := t.isLt; omega⟩ : Fin 8) (⟨t.val % 4, by omega⟩ : Fin 4) k d) := by
  unfold refVal
  refine shapeCast_apply _ _ _ _ ?_
  rw [Shape.rowMajor_val_five, Shape.rowMajor_val_four]
  show (((b.val * 8 + t.val / 4) * 4 + t.val % 4) * 196 + k.val) * 768 + d.val
    = ((b.val * 32 + t.val) * 196 + k.val) * 768 + d.val
  omega

/-- The index table's row of start `t mod 4` and token place `k` is the specification's row. -/
theorem row_mod (t : Fin 32) (k : Fin 196) : row (⟨t.val % 4, by omega⟩ : Fin 4) k = dstRow t k := rfl

/-! ## The reference's value is the tube selection -/

/-- Result element `(b, t, k, d)` of the reference is the tube selection's. -/
theorem refVal_apply (x : FVec F S8x32x196x768 .f32) (b : Fin 8) (t : Fin 32) (k : Fin 196) (d : Fin 768) :
    refVal x (ix4 b t k d) = tubeAt x b t k d := by
  rw [refVal_gathered, gathered_apply]
  unfold tubeAt
  refine congrArg x ?_
  funext a
  refine Fin.ext ?_
  match a with
  | ⟨0, _⟩ => rfl
  | ⟨1, _⟩ =>
    show min (starts (ix4 (⟨t.val / 4, _⟩ : Fin 8) (⟨t.val % 4, _⟩ : Fin 4) k (0 : Fin 2))).toInt.toNat 31 = (srcFrame t k).val
    rw [starts_zero, frames_toNat, row_mod, srcFrame_val]
    have := t.isLt; have := frameOff_lt (dstRow t k)
    show min (4 * (t.val / 4) + frameOff (dstRow t k)) 31 = _
    omega
  | ⟨2, _⟩ =>
    show min (starts (ix4 (⟨t.val / 4, _⟩ : Fin 8) (⟨t.val % 4, _⟩ : Fin 4) k (1 : Fin 2))).toInt.toNat 195 = (srcToken t k).val
    rw [starts_one, tokens_toNat, row_mod, srcToken_val]
    have := token_lt (dstRow t k)
    omega
  | ⟨3, _⟩ => rfl

/-- The reference's result is the tube selection of its argument. -/
theorem refVal_eq_tube (x : FVec F S8x32x196x768 .f32) : refVal x = tube x := by
  funext i
  rw [eq_ix4 i]
  exact refVal_apply x _ _ _ _

end Cert.ReferenceIdeal.RefValue

end
-- ==== Proof.lean ====
/-
  The certificate of the tube selection kernel against its reference.
  Both programs move data and compute nothing: result frame t = 4g + s, token place k, is a copy of input frame
  4g + frameOff r, token `token r`, with r = s·196 + k the row of the static index table (Proof/Spec.lean's `tube`).
  The kernel regroups the input into groups of four frames, copies rows of each group by 160 static slice copies that
  follow the table's runs, and regroups back (Proof/KernelBlock.lean, KernelValue.lean, KernelBridge.lean); the reference
  builds the (frame, token) start indices from the same table and gathers channel rows at them (Proof/RefRun.lean,
  RefValue.lean). Each side's result is `tube` of the argument, so from memories that agree on the argument the two
  results are equal element by element; no arithmetic on the values occurs, and the precondition is not used.
  The kernel's two frames are its generated frame certificates; the reference's frame is its run with the result dropped;
  the idealization rewrote nothing, so the preservation claim is empty.
-/
import proofs.«430312_j6047313953523_3_alg».proof.Defs
import proofs.«430312_j6047313953523_3_alg».proof.Proof.Gen.Kernel
import proofs.«430312_j6047313953523_3_alg».proof.Proof.Gen.Kernel.Frame
import proofs.«430312_j6047313953523_3_alg».proof.Proof.Gen.KernelIdeal
import proofs.«430312_j6047313953523_3_alg».proof.Proof.Gen.KernelIdeal.Frame
import proofs.«430312_j6047313953523_3_alg».proof.Proof.Gen.ReferenceIdeal
import proofs.«430312_j6047313953523_3_alg».proof.Proof.Gen.Pre_finite_inputs
import proofs.«430312_j6047313953523_3_alg».proof.Proof.KernelBridge
import proofs.«430312_j6047313953523_3_alg».proof.Proof.RefRun
import proofs.«430312_j6047313953523_3_alg».proof.Proof.RefValue

noncomputable section

namespace Cert.Proof

open Idealize.ShloMosaic Idealize.ShloMosaic.TcCoe Idealize.SL.Sem

/-- The word-level kernel runs and keeps its argument: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its argument: its run, the result forgotten. -/
theorem frame_reference : Cert.frame_ReferenceIdeal := fun m ρ _ =>
  (θ_run Cert.ReferenceIdeal.defs _ _).mono (fun _ h c => (h c).2) (Cert.ReferenceIdeal.Hand.run (F := Ideal) m ρ)

/-- From memories that agree on the argument both programs end with the tube selection of it. -/
theorem algebraic : Cert.algebraic_KernelIdeal_ReferenceIdeal := by
  intro m ρ m' ρ' _ hagree
  refine ⟨fun c => Cert.Tube.tube (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Hand.run (F := Ideal) m ρ)
    exact Cert.KernelIdeal.Hand.kerVal_eq_tube _
  · refine (θ_run Cert.ReferenceIdeal.defs _ _).mono (fun _ h c => ⟨(h c).1.trans ?_, (h c).2⟩)
      (Cert.ReferenceIdeal.Hand.run (F := Ideal) m' ρ')
    rw [hagree c]
    exact Cert.ReferenceIdeal.RefValue.refVal_eq_tube _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
